-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8388608 : Shape := ⟨1, ![8388608]⟩
abbrev S1 : Shape := ⟨1, ![1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S8388608 32) (main_arg2 : FVec F S1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8388608 : Shape := ⟨1, ![8388608]⟩
abbrev S1 : Shape := ⟨1, ![1]⟩
abbrev S4096 : Shape := ⟨1, ![4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S4096x2048 : Shape := ⟨2, ![4096, 2048]⟩
abbrev S1x4096 : Shape := ⟨2, ![1, 4096]⟩
abbrev S1x1 : Shape := ⟨2, ![1, 1]⟩
abbrev S256x2048 : Shape := ⟨2, ![256, 2048]⟩
abbrev S1024x2048 : Shape := ⟨2, ![1024, 2048]⟩
abbrev S1x256 : Shape := ⟨2, ![1, 256]⟩
abbrev S1024x256 : Shape := ⟨2, ![1024, 256]⟩

abbrev nBuf : Space → Nat
  | .hbm => 17
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S1, .f32⟩
  | .hbm, ⟨3, _⟩ => ⟨S4096, .f32⟩
  | .hbm, ⟨4, _⟩ => ⟨S8192x2048x2, .f32⟩
  | .hbm, ⟨5, _⟩ => ⟨S8192x2048x1, .f32⟩
  | .hbm, ⟨6, _⟩ => ⟨S8192x2048, .f32⟩
  | .hbm, ⟨7, _⟩ => ⟨S8192x2048, .bf16⟩
  | .hbm, ⟨8, _⟩ => ⟨S8192x2048x1, .f32⟩
  | .hbm, ⟨9, _⟩ => ⟨S8192x2048, .f32⟩
  | .hbm, ⟨10, _⟩ => ⟨S8192x2048, .bf16⟩
  | .hbm, ⟨11, _⟩ => ⟨S4096x2048, .i32⟩
  | .hbm, ⟨12, _⟩ => ⟨S1x4096, .f32⟩
  | .hbm, ⟨13, _⟩ => ⟨S1x1, .f32⟩
  | .hbm, ⟨14, _⟩ => ⟨S4096x2048, .bf16⟩
  | .hbm, ⟨15, _⟩ => ⟨S4096x2048, .bf16⟩
  | .hbm, ⟨16, _⟩ => ⟨S8192x4096, .f32⟩
  | .local _ .vmem, ⟨0, _⟩ => ⟨S256x2048, .i32⟩
  | .local _ .vmem, ⟨1, _⟩ => ⟨S256x2048, .i32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x1, .f32⟩
  | .local _ .vmem, ⟨15, _⟩ => ⟨S1x256, .f32⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  bitsLt_bf16_f32 : FTy.bits .bf16 < FTy.bits .f32
  slices_S8192x2048x2_S8192x2048x1_0_0_1 : S8192x2048x2.Slices ![0, 0, 1] S8192x2048x1
  shapeCasts_S8388608_S4096x2048 : S8388608.ShapeCasts S4096x2048
  shapeCasts_S4096_S1x4096 : S4096.ShapeCasts S1x4096
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .bf16 = 32 ∨ (Rect.block (s := S4096x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .bf16 = 32 ∨ (Rect.block (s := S4096x2048) S256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x4096.size a
  hwx1_5 : ∀ i : grid1.Coords, EltTy.bits .f32 = 32 ∨ (Rect.block (s := S1x4096) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x4096.size a
  hwx1_6 : ∀ i : grid1.Coords, EltTy.bits .f32 = 32 ∨ (Rect.block (s := S8192x4096) S1024x256.size (cc1_transform_6 i) (hinb1_6 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v7) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10_0) S256x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8388608 : Shape := ⟨1, ![8388608]⟩
abbrev S1 : Shape := ⟨1, ![1]⟩
abbrev S4096 : Shape := ⟨1, ![4096]⟩
abbrev S8 : Shape := ⟨1, ![8]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S4096x4096 : Shape := ⟨2, ![4096, 4096]⟩
abbrev S1x4096 : Shape := ⟨2, ![1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S1, .f32⟩
  | .hbm, ⟨3, _⟩ => ⟨S4096, .f32⟩
  | .hbm, ⟨4, _⟩ => ⟨S8, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S16777216, .i1⟩
  | .hbm, ⟨28, _⟩ => ⟨S_, .i32⟩
  | .hbm, ⟨29, _⟩ => ⟨S16777216, .i32⟩
  | .hbm, ⟨30, _⟩ => ⟨S16777216, .i32⟩
  | .hbm, ⟨31, _⟩ => ⟨S_, .i32⟩
  | .hbm, ⟨32, _⟩ => ⟨S16777216, .i32⟩
  | .hbm, ⟨33, _⟩ => ⟨S16777216, .i1⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S16777216, .i32⟩
  | .hbm, ⟨38, _⟩ => ⟨S16777216x1, .i32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S4096x4096, .f32⟩
  | .hbm, ⟨46, _⟩ => ⟨S4096x4096, .f32⟩
  | .hbm, ⟨47, _⟩ => ⟨S8192x4096, .f32⟩
  | .hbm, ⟨48, _⟩ => ⟨S1x4096, .f32⟩
  | .hbm, ⟨49, _⟩ => ⟨S8192x4096, .f32⟩
  | .hbm, ⟨50, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S1_S_ : S1.ShapeCasts S_
  shapeCasts_S16777216_S4096x4096 : S16777216.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S8_S16777216x1_S16777216_n_0_n_n_0_1_1_wf : GatherDims.WF S8 S16777216x1 S16777216 [] [0] [] [0] [] 1 ![1]
  dot_S8192x4096_S4096x4096_S8192x4096_1_0_0_1_n_n_wf : DotDims.WF S8192x4096 S4096x4096 S8192x4096 [1] [0] [0] [1] [] []

variable [Facts₀]

def gather_S8_S16777216x1_S16777216_n_0_n_n_0_1_1 : GatherDims S8 S16777216x1 S16777216 where
  offsetDims := []
  collapsedSliceDims := [0]
  operandBatchingDims := []
  startIndicesBatchingDims := []
  startIndexMap := [0]
  indexVectorDim := 1
  sliceSizes := ![1]
  wf := gather_S8_S16777216x1_S16777216_n_0_n_n_0_1_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Fp4Spec.lean ====
/-
  The mathematics shared by both programs, stated without either of them.

  A packed word holds two 4-bit codes, the high nibble `(p >>s 4) & 15` and the low nibble `p & 15`. A code `w`
  denotes the signed number `± M`, where the magnitude `M` is entry `w & 7` of the table
  `0, 1/2, 1, 3/2, 2, 3, 4, 6` and the sign is bit 3 of `w`. One program reads `M` off the table (`decR`); the
  other rebuilds it from the exponent field `e = (w & 7) >> 1` and the mantissa bit `m = w & 1` as `m / 2` when
  `e = 0` and `(1 + m / 2) · 2 ^ (e - 1)` otherwise (`decK`). The two agree on every word (`decK_eq_decR`) and are
  real numbers (`decR_real`).

  The result is `out[t, o] = (∑ i, x[t, i] · W[o, i]) · s + b[o]` with `W[o, 2c] = dec (hi p[2048 o + c])`,
  `W[o, 2c + 1] = dec (lo p[2048 o + c])`. One program scales every weight by `s` before the sum over all 4096
  columns (`refAt`); the other sums the even and the odd columns apart and scales the total (`gemmAt`). For real
  `x` and `s` these are one number (`bridge`): a sum over `Fin 4096` is the sum over the even plus the sum over
  the odd positions, and a real factor moves across a finite sum of reals.
-/
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Cert.Fp4

open Idealize.ShloMosaic Idealize.ShloMosaic.ValueIdx
open scoped BigOperators

/-- An arithmetic right shift by an amount below the width is the same word on every unit. -/
theorem shrsi_small (u : ArithUnit) (x k : BitVec 32) (hk : k.toNat < 32) : IntOp.shrsi u x k = x.sshiftRight' k :=
  if_pos hk

/-- The high nibble of a packed word. -/
def hi (p : BitVec 32) : BitVec 32 := IntOp.andi (p.sshiftRight' 4#32) 15#32
/-- The low nibble of a packed word. -/
def lo (p : BitVec 32) : BitVec 32 := IntOp.andi p 15#32

/-- Bit 3 of a code: its sign. -/
def sgn (w : BitVec 32) : BitVec 32 := IntOp.andi (w.sshiftRight' 3#32) 1#32
/-- Bits 0 to 2 of a code: its magnitude's index. -/
def mag (w : BitVec 32) : BitVec 32 := IntOp.andi w 7#32

/-- A code's value rebuilt from its exponent field and mantissa bit, every operation the exact one. -/
def decK (w : BitVec 32) : EReal :=
  let e : BitVec 32 := IntOp.andi ((mag w).sshiftRight' 1#32) 3#32
  let mf : EReal := (((IntOp.andi (mag w) 1#32).toInt : ℝ) : EReal)
  let half : EReal := Ideal.ofBits .f32 0x3F000000#32
  let one : EReal := Ideal.ofBits .f32 0x3F800000#32
  let two : EReal := Ideal.ofBits .f32 0x40000000#32
  let four : EReal := Ideal.ofBits .f32 0x40800000#32
  let zero : EReal := Ideal.ofBits .f32 0x00000000#32
  let pow2 : EReal := Scalar.select (IntOp.cmpi .eq e 3#32) four (Scalar.select (IntOp.cmpi .eq e 2#32) two one)
  let v : EReal := Scalar.select (IntOp.cmpi .eq e 0#32) (mf * half) ((one + half * mf) * pow2)
  Scalar.select (IntOp.cmpi .ne (sgn w) 0#32) (zero - v) v

/-- The magnitudes' table as float words: 0, 1/2, 1, 3/2, 2, 3, 4, 6. -/
def tab : Fin 8 → BitVec 32 :=
  ![0x00000000#32, 0x3F000000#32, 0x3F800000#32, 0x3FC00000#32, 0x40000000#32, 0x40400000#32, 0x40800000#32, 0x40C00000#32]

/-- A code's value read off the table. -/
def decR (w : BitVec 32) : EReal :=
  let g : EReal := Ideal.ofBits .f32 (tab ⟨(mag w).toNat % 8, Nat.mod_lt _ (by decide)⟩)
  Scalar.select (IntOp.cmpi .ne (sgn w) 0#32) (-g) g

/-- The codes in the order the weights use them: position `2 q` is the high nibble of packed word `q`, position
    `2 q + 1` its low nibble. -/
def code (p : (⟨1, ![8388608]⟩ : Shape).Idx → BitVec 32) (k : Fin 16777216) : BitVec 32 :=
  if k.val % 2 = 0 then hi (p (ix1 ⟨k.val / 2, by omega⟩)) else lo (p (ix1 ⟨k.val / 2, by omega⟩))

/-- Entry `(t, o)` of the result when every weight is scaled before one sum over all 4096 columns. -/
def refAt (x : (⟨2, ![8192, 4096]⟩ : Shape).Idx → EReal) (p : (⟨1, ![8388608]⟩ : Shape).Idx → BitVec 32)
    (s : (⟨1, ![1]⟩ : Shape).Idx → EReal) (b : (⟨1, ![4096]⟩ : Shape).Idx → EReal) (t : Fin 8192) (o : Fin 4096) : EReal :=
  (∑ i : Fin 4096, x (ix2 t i) * (decR (code p ⟨o.val * 4096 + i.val, by omega⟩) * s (ix1 0))) + b (ix1 o)

/-- Entry `(t, o)` of a product of even and odd column halves against two weight halves, the total scaled once. -/
def gemmAt (xe xo : (⟨2, ![8192, 2048]⟩ : Shape).Idx → EReal) (we wo : (⟨2, ![4096, 2048]⟩ : Shape).Idx → EReal)
    (s : (⟨2, ![1, 1]⟩ : Shape).Idx → EReal) (b : (⟨2, ![1, 4096]⟩ : Shape).Idx → EReal) (t : Fin 8192) (o : Fin 4096) : EReal :=
  ((∑ c : Fin 2048, xe (ix2 t c) * we (ix2 o c)) + (∑ c : Fin 2048, xo (ix2 t c) * wo (ix2 o c))) * s (ix2 0 0) + b (ix2 0 o)

/-- The same over the argument arrays: the even and odd columns of `x`, the two nibbles of each packed word. -/
def outAt (x : (⟨2, ![8192, 4096]⟩ : Shape).Idx → EReal) (p : (⟨1, ![8388608]⟩ : Shape).Idx → BitVec 32)
    (s : (⟨1, ![1]⟩ : Shape).Idx → EReal) (b : (⟨1, ![4096]⟩ : Shape).Idx → EReal) (t : Fin 8192) (o : Fin 4096) : EReal :=
  ((∑ c : Fin 2048, x (ix2 t ⟨2 * c.val, by omega⟩) * decK (hi (p (ix1 ⟨o.val * 2048 + c.val, by omega⟩))))
    + (∑ c : Fin 2048, x (ix2 t ⟨2 * c.val + 1, by omega⟩) * decK (lo (p (ix1 ⟨o.val * 2048 + c.val, by omega⟩))))) * s (ix1 0)
    + b (ix1 o)

/-! ## The float words of the table and of the rebuilding, as real numbers -/

theorem ob_zero : Ideal.ofBits .f32 0x00000000#32 = ((0 : ℝ) : EReal) := by
  simp [Ideal.ofBits, Ideal.ieee]
theorem ob_half : Ideal.ofBits .f32 0x3F000000#32 = ((1 / 2 : ℝ) : EReal) := by
  simp [Ideal.ofBits, Ideal.ieee, -EReal.coe_mul]; norm_num
theorem ob_one : Ideal.ofBits .f32 0x3F800000#32 = ((1 : ℝ) : EReal) := by
  simp [Ideal.ofBits, Ideal.ieee, -EReal.coe_mul]; norm_num
theorem ob_threehalves : Ideal.ofBits .f32 0x3FC00000#32 = ((3 / 2 : ℝ) : EReal) := by
  simp [Ideal.ofBits, Ideal.ieee, -EReal.coe_mul]; norm_num
theorem ob_two : Ideal.ofBits .f32 0x40000000#32 = ((2 : ℝ) : EReal) := by
  simp [Ideal.ofBits, Ideal.ieee, -EReal.coe_mul]; norm_num
theorem ob_three : Ideal.ofBits .f32 0x40400000#32 = ((3 : ℝ) : EReal) := by
  simp [Ideal.ofBits, Ideal.ieee, -EReal.coe_mul]; norm_num
theorem ob_four : Ideal.ofBits .f32 0x40800000#32 = ((4 : ℝ) : EReal) := by
  simp [Ideal.ofBits, Ideal.ieee, -EReal.coe_mul]; norm_num
theorem ob_six : Ideal.ofBits .f32 0x40C00000#32 = ((6 : ℝ) : EReal) := by
  simp [Ideal.ofBits, Ideal.ieee, -EReal.coe_mul]; norm_num

/-! ## The two decodes agree -/

/-- A word masked by 7 is below 8. -/
theorem mag_lt (w : BitVec 32) : (mag w).toNat < 8 := by
  have h : (w &&& 7#32).toNat ≤ 7 := by rw [BitVec.toNat_and]; exact Nat.and_le_right
  exact Nat.lt_succ_of_le h

/-- So the magnitude's index is one of eight numerals. -/
theorem mag_ofNat (w : BitVec 32) : ∃ n, n < 8 ∧ mag w = BitVec.ofNat 32 n :=
  ⟨(mag w).toNat, mag_lt w, BitVec.eq_of_toNat_eq (by
    rw [BitVec.toNat_ofNat, Nat.mod_eq_of_lt (by have := mag_lt w; omega)])⟩

/-- The rebuilt value as a function of the sign bit and the magnitude's index. -/
def decKc (sg mg : BitVec 32) : EReal :=
  let e : BitVec 32 := IntOp.andi (mg.sshiftRight' 1#32) 3#32
  let mf : EReal := (((IntOp.andi mg 1#32).toInt : ℝ) : EReal)
  let half : EReal := Ideal.ofBits .f32 0x3F000000#32
  let one : EReal := Ideal.ofBits .f32 0x3F800000#32
  let two : EReal := Ideal.ofBits .f32 0x40000000#32
  let four : EReal := Ideal.ofBits .f32 0x40800000#32
  let zero : EReal := Ideal.ofBits .f32 0x00000000#32
  let pow2 : EReal := Scalar.select (IntOp.cmpi .eq e 3#32) four (Scalar.select (IntOp.cmpi .eq e 2#32) two one)
  let v : EReal := Scalar.select (IntOp.cmpi .eq e 0#32) (mf * half) ((one + half * mf) * pow2)
  Scalar.select (IntOp.cmpi .ne sg 0#32) (zero - v) v

/-- The table's value as a function of the sign bit and the magnitude's index. -/
def decRc (sg mg : BitVec 32) : EReal :=
  let g : EReal := Ideal.ofBits .f32 (tab ⟨mg.toNat % 8, Nat.mod_lt _ (by decide)⟩)
  Scalar.select (IntOp.cmpi .ne sg 0#32) (-g) g

theorem decK_core (w : BitVec 32) : decK w = decKc (sgn w) (mag w) := rfl
theorem decR_core (w : BitVec 32) : decR w = decRc (sgn w) (mag w) := rfl

/-- The magnitudes as real numbers. -/
def magR : ℕ → ℝ
  | 0 => 0 | 1 => 1 / 2 | 2 => 1 | 3 => 3 / 2 | 4 => 2 | 5 => 3 | 6 => 4 | _ => 6

/-- The table's entry at a numeral index. -/
theorem tab_val (n : ℕ) (hn : n < 8) (h : (BitVec.ofNat 32 n).toNat % 8 < 8) :
    Ideal.ofBits .f32 (tab ⟨(BitVec.ofNat 32 n).toNat % 8, h⟩) = ((magR n : ℝ) : EReal) := by
  interval_cases n
  · exact ob_zero
  · exact ob_half
  · exact ob_one
  · exact ob_threehalves
  · exact ob_two
  · exact ob_three
  · exact ob_four
  · exact ob_six

/-- The table's value at a numeral index: the real magnitude under the sign's select. -/
theorem decRc_eq (sg : BitVec 32) (n : ℕ) (hn : n < 8) :
    decRc sg (BitVec.ofNat 32 n) = Scalar.select (IntOp.cmpi .ne sg 0#32) (-((magR n : ℝ) : EReal)) ((magR n : ℝ) : EReal) := by
  unfold decRc
  simp only [tab_val n hn]

/-- The rebuilt value at a numeral index: the same real magnitude under the same select (eight closed cases). -/
theorem decKc_eq (sg : BitVec 32) (n : ℕ) (hn : n < 8) :
    decKc sg (BitVec.ofNat 32 n) = Scalar.select (IntOp.cmpi .ne sg 0#32) (-((magR n : ℝ) : EReal)) ((magR n : ℝ) : EReal) := by
  unfold decKc
  interval_cases n <;>
    simp (decide := true) only [magR, IntOp.andi, IntOp.cmpi, Scalar.select, ob_zero, ob_half, ob_one, ob_two, ob_four] <;>
    simp only [BitVec.reduceAnd, BitVec.reduceToInt, Int.cast_zero, Int.cast_one, if_true, if_false, ← EReal.coe_mul,
      ← EReal.coe_add, ← EReal.coe_sub, ← EReal.coe_neg] <;>
    split_ifs <;> norm_num

/-- The rebuilt value is the table's. -/
theorem decK_eq_decR (w : BitVec 32) : decK w = decR w := by
  obtain ⟨n, hn, e⟩ := mag_ofNat w
  rw [decK_core, decR_core, e, decKc_eq _ n hn, decRc_eq _ n hn]

/-- A code's value is a real number. -/
theorem decR_real (w : BitVec 32) : ∃ r : ℝ, decR w = (r : EReal) := by
  obtain ⟨n, hn, e⟩ := mag_ofNat w
  rw [decR_core, e, decRc_eq _ n hn]
  unfold Scalar.select
  split_ifs
  · exact ⟨-magR n, by rw [EReal.coe_neg]⟩
  · exact ⟨magR n, rfl⟩

/-! ## The two arrangements of the sum agree -/

/-- A finite sum of reals, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 positions is the sum over the even positions plus the sum over the odd ones. -/
theorem sum_even_odd {M : Type*} [AddCommMonoid M] (g : Fin 4096 → M) :
    ∑ i, g i = (∑ c : Fin 2048, g ⟨2 * c.val, by omega⟩) + ∑ c : Fin 2048, g ⟨2 * c.val + 1, by omega⟩ := by
  have h : ∑ i, g i = ∑ ab : Fin 2048 × Fin 2, g (finProdFinEquiv ab) :=
    (Equiv.sum_comp (finProdFinEquiv (m := 2048) (n := 2)) g).symm
  rw [h, Fintype.sum_prod_type]
  simp only [Fin.sum_univ_two]
  rw [Finset.sum_add_distrib]
  congr 1 <;> refine Finset.sum_congr rfl fun c _ => congrArg g (Fin.ext ?_) <;>
    simp [finProdFinEquiv] <;> omega

/-- Position `4096 o + 2 c` of the code stream is the high nibble of packed word `2048 o + c`. -/
theorem code_even (p : (⟨1, ![8388608]⟩ : Shape).Idx → BitVec 32) (o : Fin 4096) (c : Fin 2048) (h) :
    code p ⟨o.val * 4096 + 2 * c.val, h⟩ = hi (p (ix1 ⟨o.val * 2048 + c.val, by omega⟩)) := by
  unfold code
  rw [if_pos (by show (o.val * 4096 + 2 * c.val) % 2 = 0; omega)]
  exact congrArg (fun q => hi (p (ix1 q))) (Fin.ext (by show (o.val * 4096 + 2 * c.val) / 2 = o.val * 2048 + c.val; omega))

/-- Position `4096 o + 2 c + 1` is its low nibble. -/
theorem code_odd (p : (⟨1, ![8388608]⟩ : Shape).Idx → BitVec 32) (o : Fin 4096) (c : Fin 2048) (h) :
    code p ⟨o.val * 4096 + (2 * c.val + 1), h⟩ = lo (p (ix1 ⟨o.val * 2048 + c.val, by omega⟩)) := by
  unfold code
  rw [if_neg (by show ¬ (o.val * 4096 + (2 * c.val + 1)) % 2 = 0; omega)]
  exact congrArg (fun q => lo (p (ix1 q))) (Fin.ext (by show (o.val * 4096 + (2 * c.val + 1)) / 2 = o.val * 2048 + c.val; omega))

/-- For real `x` and a real scale, scaling each weight before the full sum is scaling the two half sums' total. -/
theorem bridge (x : (⟨2, ![8192, 4096]⟩ : Shape).Idx → EReal) (p : (⟨1, ![8388608]⟩ : Shape).Idx → BitVec 32)
    (s : (⟨1, ![1]⟩ : Shape).Idx → EReal) (b : (⟨1, ![4096]⟩ : Shape).Idx → EReal)
    (hx : ∀ i, ∃ r : ℝ, x i = (r : EReal)) (hs : ∃ r : ℝ, s (ix1 0) = (r : EReal)) (t : Fin 8192) (o : Fin 4096) :
    refAt x p s b t o = outAt x p s b t o := by
  choose xr hxr using hx
  obtain ⟨sr, hsr⟩ := hs
  choose dr hdr using decR_real
  unfold refAt outAt
  congr 1
  rw [sum_even_odd]
  simp only [code_even, code_odd, decK_eq_decR, hxr, hsr, hdr, ← EReal.coe_mul, ← coe_sum, ← EReal.coe_add]
  congr 1
  rw [add_mul, Finset.sum_mul, Finset.sum_mul]
  congr 1 <;> exact Finset.sum_congr rfl fun _ _ => by ring

end Cert.Fp4

end
-- ==== Proof.Finite.lean ====
/-
  The precondition read: where its predicate is all ones, every entry of `x` and the one entry of the scale is a
  real number. The predicate is the conjunction of three `all`s of `|v| < +∞`; an extended real whose absolute
  value `max v (-v)` is below `+∞` is neither infinity.
-/
import proofs.«419606_j34376918237971_3_alg».proof.Proof.Gen.Pre_finite_inputs
import Idealize.ShloMosaic.PureOps.Ideal
import Idealize.ShloMosaic.PureOps.Ideal.Laws
import Idealize.ShloMosaic.Lib.ValueIdx
import Idealize.ShloMosaic.Lib.Affine
import Idealize.ShloMosaic.Lib.ReduceAll

noncomputable section

namespace Cert.Pre_finite_inputs.Hand

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The word the bound is spelt with denotes `+∞`. -/
theorem inf_word : Ideal.ofBits .f32 0x7F800000#32 = (⊤ : EReal) := by
  simp [Ideal.ofBits, Ideal.ieee]

/-- An extended real whose absolute value is below `+∞` is a real number. -/
theorem real_of_abs_lt (v : EReal) (h : Ideal.cmp .olt (max v (-v)) (⊤ : EReal) = 1#1) : ∃ r : ℝ, v = (r : EReal) := by
  have h' : max v (-v) < (⊤ : EReal) := by
    by_contra hn
    simp [Ideal.cmp, hn] at h
  induction v using EReal.rec with
  | bot => simp at h'
  | coe r => exact ⟨r, rfl⟩
  | top => simp at h'

/-- Under the precondition `x` and the scale are real. -/
theorem real_of_pre (x : FVec Ideal S8192x4096 .f32) (p : IVec S8388608 32) (s : FVec Ideal S1 .f32) (b : FVec Ideal S4096 .f32)
    (h : Cert.Pre_finite_inputs.fn (F := Ideal) x p s b = fun _ => 1#1) :
    (∀ i, ∃ r : ℝ, x i = (r : EReal)) ∧ (∃ r : ℝ, s (ix1 0) = (r : EReal)) := by
  have h0 := congrFun h ix0
  dsimp only [fn] at h0
  obtain ⟨h12, -⟩ := IntOp.andi_eq_one.mp h0
  obtain ⟨h1, h2⟩ := IntOp.andi_eq_one.mp h12
  refine ⟨fun i => ?_, ?_⟩
  · have e := Host.reduce_andi_all _ _ _ _ _ h1 i
    refine real_of_abs_lt (x i) ?_
    simpa only [cmpf, Host.absf, broadcastInDim, constant, Ideal.cmpf_def, Ideal.hostAbsf_def, Ideal.absf_def,
      Ideal.ofBits_def, inf_word] using e
  · have e := Host.reduce_andi_all _ _ _ _ _ h2 (ix1 0)
    refine real_of_abs_lt (s (ix1 0)) ?_
    simpa only [cmpf, Host.absf, broadcastInDim, constant, Ideal.cmpf_def, Ideal.hostAbsf_def, Ideal.absf_def,
      Ideal.ofBits_def, inf_word] using e

end Cert.Pre_finite_inputs.Hand

end
-- ==== Proof.DequantValue.lean ====
/-
  What the first region leaves in its two output arrays, at the ideal instance and for any contents `V` the region
  is entered from: entry `(o, k)` of the first is the decoded high nibble of packed word `(o, k)`, of the second
  the decoded low nibble. The body is pointwise, each grid point writes rows `256 t … 256 t + 255` whole, and the
  sixteen points' blocks tile the 4096 rows.
-/
import proofs.«419606_j34376918237971_3_alg».proof.Proof.Gen.KernelIdeal.Frame
import proofs.«419606_j34376918237971_3_alg».proof.Proof.Fp4Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Dequant

/-! ## One code word: the body's chain of operations at an index -/

/-- The high-nibble store's payload at an index: the shifts are by 4, 3 and 1, all below the width, so each is the
    plain arithmetic shift; every other operation is pointwise and exact, and a change of float format is the identity. -/
theorem pay_even_apply (x0 : Vec Ideal S256x2048 .i32) (j : S256x2048.Idx) :
    k0_pay12 (F := Ideal) (k0_pay5 x0) (k0_pay9 x0) (k0_pay10 x0) (k0_pay11 x0) j
      = Cert.Fp4.decK (Cert.Fp4.hi (x0 j)) := by
  unfold k0_pay12 k0_pay5 k0_pay9 k0_pay10 k0_pay11 k0_pay7 k0_pay8 k0_pay6 k0_pay3 k0_pay2
  unfold Cert.Fp4.decK Cert.Fp4.hi Cert.Fp4.sgn Cert.Fp4.mag
  simp only [shrsi, andi, cmpi, select, broadcast, sitofp, mulf, addf, subf, truncf, shapeCast_self,
    Ideal.mulf_def, Ideal.addf_def, Ideal.subf_def, Ideal.truncf_def, Ideal.ofBits_def,
    Cert.Fp4.shrsi_small _ _ _ (by decide : (4#32 : BitVec 32).toNat < 32),
    Cert.Fp4.shrsi_small _ _ _ (by decide : (3#32 : BitVec 32).toNat < 32),
    Cert.Fp4.shrsi_small _ _ _ (by decide : (1#32 : BitVec 32).toNat < 32)]
  rfl

/-- The low-nibble store's payload at an index: the same chain on the word masked by 15, its shifts by 3 and 1. -/
theorem pay_odd_apply (x0 : Vec Ideal S256x2048 .i32) (j : S256x2048.Idx) :
    k0_pay1 (F := Ideal) (k0_pay13 (k0_pay4 x0)) (k0_pay14 (k0_pay4 x0)) j
      = Cert.Fp4.decK (Cert.Fp4.lo (x0 j)) := by
  unfold k0_pay1 k0_pay13 k0_pay14 k0_pay4 k0_pay2
  unfold Cert.Fp4.decK Cert.Fp4.lo Cert.Fp4.sgn Cert.Fp4.mag
  simp only [shrsi, andi, cmpi, select, broadcast, sitofp, mulf, addf, subf, truncf, shapeCast_self,
    Ideal.mulf_def, Ideal.addf_def, Ideal.subf_def, Ideal.truncf_def, Ideal.ofBits_def,
    Cert.Fp4.shrsi_small _ _ _ (by decide : (3#32 : BitVec 32).toNat < 32),
    Cert.Fp4.shrsi_small _ _ _ (by decide : (1#32 : BitVec 32).toNat < 32)]
  rfl

/-- The two payloads as functions of the block of packed words. -/
theorem pay_even_eq (x0 : Vec Ideal S256x2048 .i32) :
    k0_pay12 (F := Ideal) (k0_pay5 x0) (k0_pay9 x0) (k0_pay10 x0) (k0_pay11 x0)
      = fun j => Cert.Fp4.decK (Cert.Fp4.hi (x0 j)) := funext (pay_even_apply x0)
theorem pay_odd_eq (x0 : Vec Ideal S256x2048 .i32) :
    k0_pay1 (F := Ideal) (k0_pay13 (k0_pay4 x0)) (k0_pay14 (k0_pay4 x0))
      = fun j => Cert.Fp4.decK (Cert.Fp4.lo (x0 j)) := funext (pay_odd_apply x0)

/-! ## From blocks to the arrays -/

theorem zero_offsets : (![0, 0] : Fin 2 → Nat) = fun _ => 0 := funext fun a => by fin_cases a <;> rfl

/-- The decoded high nibbles of the packed words, as one function over the whole array. -/
abbrev evenWeights (c : Dev nD) : S4096x2048.Idx → EReal :=
  fun i => Cert.Fp4.decK (Cert.Fp4.hi ((V c main_v7 : S4096x2048.Idx → BitVec 32) i))
/-- The decoded low nibbles. -/
abbrev oddWeights (c : Dev nD) : S4096x2048.Idx → EReal :=
  fun i => Cert.Fp4.decK (Cert.Fp4.lo ((V c main_v7 : S4096x2048.Idx → BitVec 32) i))

/-- The three index maps, decided over the sixteen points: point `t` has block row `t` and block column 0 in the
    packed words and in both outputs. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- What point `t` writes back to the first output is block `t` of the decoded high nibbles: the packed words' block and
    the output's block sit over the same rows and columns. -/
theorem flushed_even (c : Dev nD) (t : Fin cfg0.N) :
    (dat0 (F := Ideal) V c).flushed 1 t = ((cfg0.win 1).blk t).view.read (Elt Ideal) (evenWeights V c) := by
  show (cfg0.win 1).cut (grid0.coords t) ((dat0 (F := Ideal) V c).after 1 t) = _
  rw [after0_1]
  unfold out0_1
  rw [View.canon_unit_zero zero_offsets]
  simp only [View.ld_unit_zero (S := S256x2048) zero_offsets]
  rw [pay_even_eq]
  obtain ⟨e0, e1, e2, e3, e4, e5⟩ := block_index t
  funext j
  show Cert.Fp4.decK (Cert.Fp4.hi (V c main_v7 (((cfg0.win 0).blk t).view.emb j)))
    = Cert.Fp4.decK (Cert.Fp4.hi (V c main_v7 (((cfg0.win 1).blk t).view.emb j)))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [h0]

/-- What point `t` writes back to the second output is block `t` of the decoded low nibbles. -/
theorem flushed_odd (c : Dev nD) (t : Fin cfg0.N) :
    (dat0 (F := Ideal) V c).flushed 2 t = ((cfg0.win 2).blk t).view.read (Elt Ideal) (oddWeights V c) := by
  show (cfg0.win 2).cut (grid0.coords t) ((dat0 (F := Ideal) V c).after 2 t) = _
  rw [after0_2]
  unfold out0_2
  rw [View.canon_unit_zero zero_offsets]
  simp only [View.ld_unit_zero (S := S256x2048) zero_offsets]
  rw [pay_odd_eq]
  obtain ⟨e0, e1, e2, e3, e4, e5⟩ := block_index t
  funext j
  show Cert.Fp4.decK (Cert.Fp4.lo (V c main_v7 (((cfg0.win 0).blk t).view.emb j)))
    = Cert.Fp4.decK (Cert.Fp4.lo (V c main_v7 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * (j 1).val = win0_2.index t (1 : Fin 2) * 2048 + 1 * (j 1).val; omega
  rw [h0]

/-- An index is in point `t`'s block of the first output iff each coordinate is in the block's range on its axis. -/
theorem mem_block_even (t : Fin cfg0.N) (i : S4096x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v10_0).slice (win0_1.rect t)).set ↔ _
  rw [View.set_slice_whole, Rect.mem_set_unit]
  exact Iff.rfl

/-- The same for the second output. -/
theorem mem_block_odd (t : Fin cfg0.N) (i : S4096x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v10_1).slice (win0_2.rect t)).set ↔ _
  rw [View.set_slice_whole, Rect.mem_set_unit]
  exact Iff.rfl

/-- Row `r` lies in the block of point `r / 256`: the sixteen blocks of 256 rows tile the 4096 rows, each block all 2048 columns wide. -/
theorem cover_even (i : S4096x2048.Idx) :
    ∃ t : Fin cfg0.N, (cfg0.win 1).flush t = true ∧ i ∈ ((cfg0.win 1).blk t).view.set := by
  have hi0 : (i 0).val < 4096 := idx2_lt0 i
  have hi1 : (i 1).val < 2048 := idx2_lt1 i
  have hN : cfg0.N = 16 := N_0
  have hlt : (i 0).val / 256 < cfg0.N := by rw [hN]; omega
  refine ⟨⟨(i 0).val / 256, hlt⟩, flush0_1 _, ?_⟩
  rw [mem_block_even]
  obtain ⟨e0, e1, e2, e3, e4, e5⟩ := block_index ⟨(i 0).val / 256, hlt⟩
  have ht : (⟨(i 0).val / 256, hlt⟩ : Fin cfg0.N).val = (i 0).val / 256 := rfl
  intro a
  match a with
  | ⟨0, _⟩ =>
    show win0_1.index ⟨(i 0).val / 256, hlt⟩ (0 : Fin 2) * 256 ≤ (i 0).val ∧ (i 0).val < win0_1.index ⟨(i 0).val / 256, hlt⟩ (0 : Fin 2) * 256 + 256
    omega
  | ⟨1, _⟩ =>
    show win0_1.index ⟨(i 0).val / 256, hlt⟩ (1 : Fin 2) * 2048 ≤ (i 1).val ∧ (i 1).val < win0_1.index ⟨(i 0).val / 256, hlt⟩ (1 : Fin 2) * 2048 + 2048
    omega

theorem cover_odd (i : S4096x2048.Idx) :
    ∃ t : Fin cfg0.N, (cfg0.win 2).flush t = true ∧ i ∈ ((cfg0.win 2).blk t).view.set := by
  have hi0 : (i 0).val < 4096 := idx2_lt0 i
  have hi1 : (i 1).val < 2048 := idx2_lt1 i
  have hN : cfg0.N = 16 := N_0
  have hlt : (i 0).val / 256 < cfg0.N := by rw [hN]; omega
  refine ⟨⟨(i 0).val / 256, hlt⟩, flush0_2 _, ?_⟩
  rw [mem_block_odd]
  obtain ⟨e0, e1, e2, e3, e4, e5⟩ := block_index ⟨(i 0).val / 256, hlt⟩
  have ht : (⟨(i 0).val / 256, hlt⟩ : Fin cfg0.N).val = (i 0).val / 256 := rfl
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    omega
  | ⟨1, _⟩ =>
    show win0_2.index ⟨(i 0).val / 256, hlt⟩ (1 : Fin 2) * 2048 ≤ (i 1).val ∧ (i 1).val < win0_2.index ⟨(i 0).val / 256, hlt⟩ (1 : Fin 2) * 2048 + 2048
    omega

/-- The first output array after the sixteen write-backs: the decoded high nibbles, everywhere. -/
theorem arr_even (c : Dev nD) : (dat0 (F := Ideal) V c).arrAt 1 cfg0.N = evenWeights V c :=
  (dat0 (F := Ideal) V c).arrAt_eq_of_cover 1 (evenWeights V c) (fun t _ => flushed_even V c t) cover_even

/-- The second: the decoded low nibbles. -/
theorem arr_odd (c : Dev nD) : (dat0 (F := Ideal) V c).arrAt 2 cfg0.N = oddWeights V c :=
  (dat0 (F := Ideal) V c).arrAt_eq_of_cover 2 (oddWeights V c) (fun t _ => flushed_odd V c t) cover_odd

end Dequant

/-- The even-column weights: the decoded high nibbles. -/
theorem dequant_even (c : Dev nD) (o : Fin 4096) (k : Fin 2048) :
    ((dat0 (F := Ideal) V c).arrAt 1 cfg0.N : S4096x2048.Idx → EReal) (ix2 o k)
      = Cert.Fp4.decK (Cert.Fp4.hi ((V c main_v7 : S4096x2048.Idx → BitVec 32) (ix2 o k))) := by
  rw [Dequant.arr_even]

/-- The odd-column weights: the decoded low nibbles. -/
theorem dequant_odd (c : Dev nD) (o : Fin 4096) (k : Fin 2048) :
    ((dat0 (F := Ideal) V c).arrAt 2 cfg0.N : S4096x2048.Idx → EReal) (ix2 o k)
      = Cert.Fp4.decK (Cert.Fp4.lo ((V c main_v7 : S4096x2048.Idx → BitVec 32) (ix2 o k))) := by
  rw [Dequant.arr_odd]

end Cert.KernelIdeal.Hand

end
-- ==== Proof.GemmValue.lean ====
/-
  What the second region leaves in the result array, at the ideal instance and for any contents `V` the region is
  entered from: entry `(t, o)` is the sum over the 2048 even-half columns of `xe[t, c] · we[o, c]` plus the same sum
  over the odd halves, times the scale, plus the bias entry `o`. A matrix product into a zero accumulator is the plain
  sum over the contracted axis; grid point `(i, j)` writes the 1024 × 256 block at rows `1024 i`, columns `256 j`,
  and the 8 × 16 blocks tile the array.
-/
import proofs.«419606_j34376918237971_3_alg».proof.Proof.Gen.KernelIdeal.Frame
import proofs.«419606_j34376918237971_3_alg».proof.Proof.Fp4Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace Gemm

/-- The product's dimension numbers, axis by axis: the left operand's row is the result's row, -/
theorem lhs_dot_0 (j : S1024x256.Idx) (k : dot_S1024x2048_S256x2048_S1024x256_1_1_0_0_n_n.contr.Idx) :
    (dot_S1024x2048_S256x2048_S1024x256_1_1_0_0_n_n.lhsIdx j k 0 : ℕ) = (j 0).val := by
  simp [DotDims.lhsIdx, dot_S1024x2048_S256x2048_S1024x256_1_1_0_0_n_n]; rfl
/-- its column the contraction position; -/
theorem lhs_dot_1 (j : S1024x256.Idx) (k : dot_S1024x2048_S256x2048_S1024x256_1_1_0_0_n_n.contr.Idx) :
    (dot_S1024x2048_S256x2048_S1024x256_1_1_0_0_n_n.lhsIdx j k 1 : ℕ) = (k ⟨0, by decide⟩).val := by
  simp [DotDims.lhsIdx, dot_S1024x2048_S256x2048_S1024x256_1_1_0_0_n_n]; rfl
/-- the right operand's row is the result's column, -/
theorem rhs_dot_0 (j : S1024x256.Idx) (k : dot_S1024x2048_S256x2048_S1024x256_1_1_0_0_n_n.contr.Idx) :
    (dot_S1024x2048_S256x2048_S1024x256_1_1_0_0_n_n.rhsIdx j k 0 : ℕ) = (j 1).val := by
  simp [DotDims.rhsIdx, dot_S1024x2048_S256x2048_S1024x256_1_1_0_0_n_n]; rfl
/-- its column the contraction position. -/
theorem rhs_dot_1 (j : S1024x256.Idx) (k : dot_S1024x2048_S256x2048_S1024x256_1_1_0_0_n_n.contr.Idx) :
    (dot_S1024x2048_S256x2048_S1024x256_1_1_0_0_n_n.rhsIdx j k 1 : ℕ) = (k ⟨0, by decide⟩).val := by
  simp [DotDims.rhsIdx, dot_S1024x2048_S256x2048_S1024x256_1_1_0_0_n_n]; rfl

/-- A product against a transposed right operand into a zero accumulator, at an entry: the sum over the shared axis. -/
theorem matmul_zero_at (a : FVec Ideal S1024x2048 .bf16) (b : FVec Ideal S256x2048 .bf16) (p : Fin 1024) (q : Fin 256) :
    (matmul dot_S1024x2048_S256x2048_S1024x256_1_1_0_0_n_n none a b (constant (F := Ideal) S1024x256 .f32 0x00000000#32) : FVec Ideal S1024x256 .f32) (ix2 p q)
      = ∑ k : Fin 2048, a (ix2 p k) * b (ix2 q k) := by
  refine (Ideal.matmul_constant_zero_apply dot_S1024x2048_S256x2048_S1024x256_1_1_0_0_n_n none a b (ix2 p q)).trans ?_
  rw [← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have hl : dot_S1024x2048_S256x2048_S1024x256_1_1_0_0_n_n.lhsIdx (ix2 p q) ((contrEquiv1 dot_S1024x2048_S256x2048_S1024x256_1_1_0_0_n_n 2048 rfl rfl).symm k) = ix2 p k := by
    funext ax; apply Fin.ext
    match ax with
    | ⟨0, _⟩ => exact lhs_dot_0 _ _
    | ⟨1, _⟩ => exact (lhs_dot_1 _ _).trans hk
  have hr : dot_S1024x2048_S256x2048_S1024x256_1_1_0_0_n_n.rhsIdx (ix2 p q) ((contrEquiv1 dot_S1024x2048_S256x2048_S1024x256_1_1_0_0_n_n 2048 rfl rfl).symm k) = ix2 q k := by
    funext ax; apply Fin.ext
    match ax with
    | ⟨0, _⟩ => exact rhs_dot_0 _ _
    | ⟨1, _⟩ => exact (rhs_dot_1 _ _).trans hk
  rw [hl, hr]

/-- Reading entry (0, 0) of a 1 × 1 array. -/
theorem extract_0_0 (x : FVec Ideal S1x1 .f32) : extractAt ![0, 0] x inpos_S1x1_p0_0 = x (ix2 0 0) := by
  unfold extractAt
  exact congrArg x (funext fun a => by match a with | ⟨0, _⟩ => rfl | ⟨1, _⟩ => rfl)

/-- THE BODY'S PAYLOAD AT AN ENTRY: the two products' sums added, times the scale, plus the bias entry of the column. -/
theorem pay_at (x0 x1 : FVec Ideal S1024x2048 .bf16) (x2 x3 : FVec Ideal S256x2048 .bf16) (x4 : FVec Ideal S1x1 .f32)
    (x5 : FVec Ideal S1x256 .f32) (p : Fin 1024) (q : Fin 256) :
    k1_pay1 (F := Ideal) x0 x1 x2 x3 x4 x5 (ix2 p q)
      = ((∑ k : Fin 2048, x0 (ix2 p k) * x2 (ix2 q k)) + (∑ k : Fin 2048, x1 (ix2 p k) * x3 (ix2 q k))) * x4 (ix2 0 0) + x5 (ix2 0 q) := by
  unfold k1_pay1
  simp only [shapeCast_self]
  rw [addf_apply, mulf_apply, addf_apply, broadcast_apply, matmul_zero_at, matmul_zero_at, broadcastTo_1b_ab_apply, extract_0_0]

/-- The result array as one function of the arrays the region reads, entry by entry. -/
def G (xe xo : S8192x2048.Idx → EReal) (we wo : S4096x2048.Idx → EReal) (s : S1x1.Idx → EReal) (b : S1x4096.Idx → EReal) :
    S8192x4096.Idx → EReal :=
  fun i => Cert.Fp4.gemmAt xe xo we wo s b (i 0) (i 1)

theorem zero_offsets : (![0, 0] : Fin 2 → Nat) = fun _ => 0 := funext fun a => by fin_cases a <;> rfl

/-- The index maps, decided over the grid: the two left operands move with the result's row blocks, the two right
    operands' ROW blocks with the result's column blocks, the scale stays, the bias moves with the result's column
    blocks; the result's block indices stay in their ranges. -/
theorem block_indices : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (1 : Fin 2) ∧ win1_2.index t (1 : Fin 2) = 0
    ∧ win1_3.index t (0 : Fin 2) = win1_6.index t (1 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = win1_6.index t (1 : Fin 2)
    ∧ win1_6.index t (0 : Fin 2) ≤ 7 ∧ win1_6.index t (1 : Fin 2) ≤ 15 :=
  (by decide +kernel : ∀ t : Fin grid1.N, _)

/-- Every block of the result is some point's. -/
theorem block_onto : ∀ (q0 : Fin 8) (q1 : Fin 16), ∃ t : Fin cfg1.N, win1_6.index t = ![q0.val, q1.val] :=
  (by decide +kernel : ∀ (q0 : Fin 8) (q1 : Fin 16), ∃ t : Fin grid1.N, win1_6.index t = ![q0.val, q1.val])

variable (V : (c : Dev nD) → (b : Ref sig .tc) → Buf (Elt Ideal) ((c : Thread nD τ).loc b))

/-- The first left operand's block at a point: rows from the result's row block on, all columns. -/
theorem blk0_at (c : Dev nD) (t : Fin cfg1.N) (p : Fin 1024) (k : Fin 2048) (r : Fin 8192)
    (hr : r.val = win1_6.index t (0 : Fin 2) * 1024 + p.val) :
    (iblk1 V c 0 t : FVec Ideal S1024x2048 .bf16) (ix2 p k) = (V c main_v3 : S8192x2048.Idx → EReal) (ix2 r k) := by
  obtain ⟨e00, e01, -⟩ := block_indices t
  unfold iblk1
  rw [View.read_apply]
  show V c main_v3 _ = V c main_v3 _
  congr 1
  funext a
  apply Fin.ext
  match a with
  | ⟨0, _⟩ => show win1_0.index t (0 : Fin 2) * 1024 + 1 * p.val = r.val; omega
  | ⟨1, _⟩ => show win1_0.index t (1 : Fin 2) * 2048 + 1 * k.val = k.val; omega

/-- The second left operand's block at a point: the same rows. -/
theorem blk1_at (c : Dev nD) (t : Fin cfg1.N) (p : Fin 1024) (k : Fin 2048) (r : Fin 8192)
    (hr : r.val = win1_6.index t (0 : Fin 2) * 1024 + p.val) :
    (iblk1 V c 1 t : FVec Ideal S1024x2048 .bf16) (ix2 p k) = (V c main_v6 : S8192x2048.Idx → EReal) (ix2 r k) := by
  obtain ⟨-, -, e10, e11, -⟩ := block_indices t
  unfold iblk1
  rw [View.read_apply]
  show V c main_v6 _ = V c main_v6 _
  congr 1
  funext a
  apply Fin.ext
  match a with
  | ⟨0, _⟩ => show win1_1.index t (0 : Fin 2) * 1024 + 1 * p.val = r.val; omega
  | ⟨1, _⟩ => show win1_1.index t (1 : Fin 2) * 2048 + 1 * k.val = k.val; omega

/-- The first right operand's block at a point: ROWS from the result's COLUMN block on, all columns. -/
theorem blk2_at (c : Dev nD) (t : Fin cfg1.N) (q : Fin 256) (k : Fin 2048) (s : Fin 4096)
    (hs : s.val = win1_6.index t (1 : Fin 2) * 256 + q.val) :
    (iblk1 V c 2 t : FVec Ideal S256x2048 .bf16) (ix2 q k) = (V c main_v10_0 : S4096x2048.Idx → EReal) (ix2 s k) := by
  obtain ⟨-, -, -, -, e20, e21, -⟩ := block_indices t
  unfold iblk1
  rw [View.read_apply]
  show V c main_v10_0 _ = V c main_v10_0 _
  congr 1
  funext a
  apply Fin.ext
  match a with
  | ⟨0, _⟩ => show win1_2.index t (0 : Fin 2) * 256 + 1 * q.val = s.val; omega
  | ⟨1, _⟩ => show win1_2.index t (1 : Fin 2) * 2048 + 1 * k.val = k.val; omega

/-- The second right operand's block at a point: the same rows. -/
theorem blk3_at (c : Dev nD) (t : Fin cfg1.N) (q : Fin 256) (k : Fin 2048) (s : Fin 4096)
    (hs : s.val = win1_6.index t (1 : Fin 2) * 256 + q.val) :
    (iblk1 V c 3 t : FVec Ideal S256x2048 .bf16) (ix2 q k) = (V c main_v10_1 : S4096x2048.Idx → EReal) (ix2 s k) := by
  obtain ⟨-, -, -, -, -, -, e30, e31, -⟩ := block_indices t
  unfold iblk1
  rw [View.read_apply]
  show V c main_v10_1 _ = V c main_v10_1 _
  congr 1
  funext a
  apply Fin.ext
  match a with
  | ⟨0, _⟩ => show win1_3.index t (0 : Fin 2) * 256 + 1 * q.val = s.val; omega
  | ⟨1, _⟩ => show win1_3.index t (1 : Fin 2) * 2048 + 1 * k.val = k.val; omega

/-- The scale's block at every point is the scale's one entry. -/
theorem blk4_at (c : Dev nD) (t : Fin cfg1.N) :
    (iblk1 V c 4 t : FVec Ideal S1x1 .f32) (ix2 0 0) = (V c main_v9 : S1x1.Idx → EReal) (ix2 0 0) := by
  obtain ⟨-, -, -, -, -, -, -, -, e40, e41, -⟩ := block_indices t
  unfold iblk1
  rw [View.read_apply]
  show V c main_v9 _ = V c main_v9 _
  congr 1
  funext a
  apply Fin.ext
  match a with
  | ⟨0, _⟩ => show win1_4.index t (0 : Fin 2) * 1 + 1 * 0 = 0; omega
  | ⟨1, _⟩ => show win1_4.index t (1 : Fin 2) * 1 + 1 * 0 = 0; omega

/-- The bias's block at a point: the one row, columns from the result's column block on. -/
theorem blk5_at (c : Dev nD) (t : Fin cfg1.N) (q : Fin 256) (s : Fin 4096)
    (hs : s.val = win1_6.index t (1 : Fin 2) * 256 + q.val) :
    (iblk1 V c 5 t : FVec Ideal S1x256 .f32) (ix2 0 q) = (V c main_v8 : S1x4096.Idx → EReal) (ix2 0 s) := by
  obtain ⟨-, -, -, -, -, -, -, -, -, -, e50, e51, -⟩ := block_indices t
  unfold iblk1
  rw [View.read_apply]
  show V c main_v8 _ = V c main_v8 _
  congr 1
  funext a
  apply Fin.ext
  match a with
  | ⟨0, _⟩ => show win1_5.index t (0 : Fin 2) * 1 + 1 * 0 = 0; omega
  | ⟨1, _⟩ => show win1_5.index t (1 : Fin 2) * 256 + 1 * q.val = s.val; omega

/-- The payload of the blocks at a point, at entry (p, q) of the block, is the whole-array function at the entry
    the block's rectangle places it: row block × 1024 + p, column block × 256 + q. -/
theorem pay_blocks_at (c : Dev nD) (t : Fin cfg1.N) (p : Fin 1024) (q : Fin 256) (r : Fin 8192) (s : Fin 4096)
    (hr : r.val = win1_6.index t (0 : Fin 2) * 1024 + p.val) (hs : s.val = win1_6.index t (1 : Fin 2) * 256 + q.val) :
    k1_pay1 (F := Ideal) (iblk1 V c 0 t) (iblk1 V c 1 t) (iblk1 V c 2 t) (iblk1 V c 3 t) (iblk1 V c 4 t) (iblk1 V c 5 t) (ix2 p q)
      = G (V c main_v3) (V c main_v6) (V c main_v10_0) (V c main_v10_1) (V c main_v9) (V c main_v8) (ix2 r s) := by
  refine (pay_at (iblk1 V c 0 t) (iblk1 V c 1 t) (iblk1 V c 2 t) (iblk1 V c 3 t) (iblk1 V c 4 t) (iblk1 V c 5 t) p q).trans ?_
  have h0 : ∀ k : Fin 2048, (iblk1 V c 0 t : FVec Ideal S1024x2048 .bf16) (ix2 p k) = (V c main_v3 : S8192x2048.Idx → EReal) (ix2 r k) :=
    fun k => blk0_at V c t p k r hr
  have h1 : ∀ k : Fin 2048, (iblk1 V c 1 t : FVec Ideal S1024x2048 .bf16) (ix2 p k) = (V c main_v6 : S8192x2048.Idx → EReal) (ix2 r k) :=
    fun k => blk1_at V c t p k r hr
  have h2 : ∀ k : Fin 2048, (iblk1 V c 2 t : FVec Ideal S256x2048 .bf16) (ix2 q k) = (V c main_v10_0 : S4096x2048.Idx → EReal) (ix2 s k) :=
    fun k => blk2_at V c t q k s hs
  have h3 : ∀ k : Fin 2048, (iblk1 V c 3 t : FVec Ideal S256x2048 .bf16) (ix2 q k) = (V c main_v10_1 : S4096x2048.Idx → EReal) (ix2 s k) :=
    fun k => blk3_at V c t q k s hs
  simp only [h0, h1, h2, h3]
  rw [blk4_at V c t, blk5_at V c t q s hs]
  rfl

/-- WHAT POINT `t` WRITES BACK is block `t` of `G` of the arrays as the region finds them. -/
theorem flushed_eq (c : Dev nD) (t : Fin cfg1.N) :
    (dat1 (F := Ideal) V c).flushed 6 t = ((cfg1.win 6).blk t).view.read (Elt Ideal)
      (G (V c main_v3) (V c main_v6) (V c main_v10_0) (V c main_v10_1) (V c main_v9) (V c main_v8)) := by
  show (cfg1.win 6).cut (grid1.coords t) ((dat1 V c).after 6 t) = _
  rw [after1_6]
  unfold out1_6
  rw [View.canon_unit_zero zero_offsets]
  simp only [View.ld_unit_zero (S := S1024x2048) zero_offsets, View.ld_unit_zero (S := S256x2048) zero_offsets,
    View.ld_unit_zero (S := S1x1) zero_offsets, View.ld_unit_zero (S := S1x256) zero_offsets]
  funext j
  obtain ⟨p, q, rfl⟩ : ∃ (p : Fin 1024) (q : Fin 256), j = ix2 p q := ⟨j 0, j 1, eq_ix2 j⟩
  obtain ⟨-, -, -, -, -, -, -, -, -, -, -, -, b0, b1⟩ := block_indices t
  have hr : win1_6.index t (0 : Fin 2) * 1024 + p.val < 8192 := by have := p.isLt; omega
  have hs : win1_6.index t (1 : Fin 2) * 256 + q.val < 4096 := by have := q.isLt; omega
  refine (pay_blocks_at V c t p q ⟨_, hr⟩ ⟨_, hs⟩ rfl rfl).trans ?_
  rw [View.read_apply]
  show G _ _ _ _ _ _ _ = G _ _ _ _ _ _ _
  congr 1
  funext a
  apply Fin.ext
  match a with
  | ⟨0, _⟩ => show win1_6.index t (0 : Fin 2) * 1024 + p.val = win1_6.index t (0 : Fin 2) * 1024 + 1 * p.val; omega
  | ⟨1, _⟩ => show win1_6.index t (1 : Fin 2) * 256 + q.val = win1_6.index t (1 : Fin 2) * 256 + 1 * q.val; omega

/-- An index of the array is in point `t`'s block iff each coordinate is in the block's range on its axis. -/
theorem mem_blk (t : Fin cfg1.N) (i : S8192x4096.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v11).slice (win1_6.rect t)).set ↔ _
  rw [View.set_slice_whole, Rect.mem_set_unit]
  exact Iff.rfl

/-- Every entry (r, s) is in the block of the point with block index (r / 1024, s / 256), and every point writes back. -/
theorem covered (i : S8192x4096.Idx) : ∃ t : Fin cfg1.N, (cfg1.win 6).flush t = true ∧ i ∈ ((cfg1.win 6).blk t).view.set := by
  have hi0 : (i 0).val < 8192 := (i 0).isLt
  have hi1 : (i 1).val < 4096 := (i 1).isLt
  obtain ⟨t, ht⟩ := block_onto ⟨(i 0).val / 1024, by omega⟩ ⟨(i 1).val / 256, by omega⟩
  have q0 : win1_6.index t (0 : Fin 2) = (i 0).val / 1024 := congrFun ht 0
  have q1 : win1_6.index t (1 : Fin 2) = (i 1).val / 256 := congrFun ht 1
  refine ⟨t, flush1_6 t, ?_⟩
  rw [mem_blk]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 256 ≤ (i 1).val ∧ (i 1).val < win1_6.index t (1 : Fin 2) * 256 + 256; omega

end Gemm

variable (V : (c : Dev nD) → (b : Ref sig .tc) → Buf (Elt Ideal) ((c : Thread nD τ).loc b))

/-- The result array after the second region, entry by entry. -/
theorem gemm_out (c : Dev nD) (t : Fin 8192) (o : Fin 4096) :
    ((dat1 (F := Ideal) V c).arrAt 6 cfg1.N : S8192x4096.Idx → EReal) (ix2 t o)
      = Cert.Fp4.gemmAt (V c main_v3) (V c main_v6) (V c main_v10_0) (V c main_v10_1) (V c main_v9) (V c main_v8) t o := by
  have h := (dat1 (F := Ideal) V c).arrAt_eq_of_cover 6
    (Gemm.G (V c main_v3) (V c main_v6) (V c main_v10_0) (V c main_v10_1) (V c main_v9) (V c main_v8))
    (fun t _ => Gemm.flushed_eq V c t) Gemm.covered
  rw [h]
  rfl

end Cert.KernelIdeal.Hand

end
-- ==== Proof.HostValue.lean ====
/-
  What the host operations before the first region leave, entry by entry, at the ideal instance: the even and the odd
  columns of `x` (a reshape to pairs, a slice of one member, a reshape back; the change of float format is the
  identity), the packed words as a 4096 × 2048 matrix in row-major order, the bias as a row and the scale as a 1 × 1
  matrix.
-/
import proofs.«419606_j34376918237971_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The layout operations read at an index, over any element type -/

section Layout
variable {α : Type}

/-- A matrix of 4096 columns viewed as 2048 pairs per row: member `r` of pair `k` of row `t` is column `2 k + r`
    (both sit at row-major position `4096 t + 2 k + r`). -/
theorem pairs_apply (x : S8192x4096.Idx → α) (h : S8192x4096.ShapeCasts S8192x2048x2)
    (t : Fin 8192) (k : Fin 2048) (r : Fin 2) :
    shapeCast S8192x2048x2 x h (ix3 t k r) = x (ix2 t ⟨2 * k.val + r.val, by omega⟩) :=
  shapeCast_apply x h _ _ (by
    rw [Shape.rowMajor_val_two, Shape.rowMajor_val_three]
    show t.val * 4096 + (2 * k.val + r.val) = (t.val * 2048 + k.val) * 2 + r.val
    omega)

/-- The slice that keeps member `r` of every pair (offsets `0, 0, r`, unit extent on the last axis). -/
theorem member_apply (r : Fin 2) (y : S8192x2048x2.Idx → α) (h : S8192x2048x2.Slices ![0, 0, r.val] S8192x2048x1)
    (t : Fin 8192) (k : Fin 2048) (u : Fin 1) :
    extractStridedSlice S8192x2048x1 ![0, 0, r.val] y h (ix3 t k u) = y (ix3 t k r) :=
  extractStridedSlice_apply _ y h _ _ fun a =>
    match a with
    | ⟨0, _⟩ => by show t.val = 0 + t.val; omega
    | ⟨1, _⟩ => by show k.val = 0 + k.val; omega
    | ⟨2, _⟩ => by show r.val = r.val + u.val; omega

/-- The trailing unit axis dropped: entry `(t, k)` of the matrix is entry `(t, k, 0)`. -/
theorem dropLast_apply (z : S8192x2048x1.Idx → α) (h : S8192x2048x1.ShapeCasts S8192x2048) (t : Fin 8192) (k : Fin 2048) :
    shapeCast S8192x2048 z h (ix2 t k) = z (ix3 t k 0) :=
  shapeCast_apply z h _ _ (by
    rw [Shape.rowMajor_val_two, Shape.rowMajor_val_three]
    show (t.val * 2048 + k.val) * 1 + 0 = t.val * 2048 + k.val
    omega)

/-- A flat array of 4096 · 2048 words viewed as a 4096 × 2048 matrix: entry `(o, k)` is flat position `2048 o + k`. -/
theorem rows_apply (w : S8388608.Idx → α) (h : S8388608.ShapeCasts S4096x2048) (o : Fin 4096) (k : Fin 2048) :
    shapeCast S4096x2048 w h (ix2 o k) = w (ix1 ⟨o.val * 2048 + k.val, by omega⟩) :=
  shapeCast_apply w h _ _ (by
    rw [Shape.rowMajor_val_two, Shape.rowMajor_val_one]
    rfl)

end Layout

/-- One member of every pair of columns of `x`, as the host operations compute it: the pairs, the slice of member `r`,
    the unit axis dropped, the change of float format (the identity on extended reals). -/
theorem member_chain (x : FVec Ideal S8192x4096 .f32) (r : Fin 2)
    (hs : S8192x2048x2.Slices ![0, 0, r.val] S8192x2048x1) (t : Fin 8192) (k : Fin 2048) :
    (truncf .bf16
        (shapeCast S8192x2048
          (extractStridedSlice S8192x2048x1 ![0, 0, r.val]
            (shapeCast S8192x2048x2 x shapeCasts_S8192x4096_S8192x2048x2) hs)
          shapeCasts_S8192x2048x1_S8192x2048 : FVec Ideal S8192x2048 .f32)
        bitsLt_bf16_f32 : FVec Ideal S8192x2048 .bf16) (ix2 t k)
      = x (ix2 t ⟨2 * k.val + r.val, by omega⟩) := by
  rw [truncf_apply, dropLast_apply, member_apply, pairs_apply]

variable (m : (ℓ : Loc nD τ sig) → Buf (Elt Ideal) ℓ) (ρ : Dev nD → PrngReg)

/-- The even columns of `x`. -/
theorem host_xe (c : Dev nD) (t : Fin 8192) (k : Fin 2048) :
    (W1 (F := Ideal) m ρ c (Proc.devRef .tc main_v3) : S8192x2048.Idx → EReal) (ix2 t k)
      = (m ((c.tc : Thread nD τ).loc main_arg0) : S8192x4096.Idx → EReal) (ix2 t ⟨2 * k.val, by omega⟩) := by
  have e : (W1 (F := Ideal) m ρ c (Proc.devRef .tc main_v3) : S8192x2048.Idx → EReal)
      = (truncf .bf16
          (shapeCast S8192x2048
            (extractStridedSlice S8192x2048x1 ![0, 0, (0 : Fin 2).val]
              (shapeCast S8192x2048x2 (m ((c.tc : Thread nD τ).loc main_arg0) : FVec Ideal S8192x4096 .f32)
                shapeCasts_S8192x4096_S8192x2048x2) slices_S8192x2048x2_S8192x2048x1_0_0_0)
            shapeCasts_S8192x2048x1_S8192x2048 : FVec Ideal S8192x2048 .f32)
          bitsLt_bf16_f32 : FVec Ideal S8192x2048 .bf16) := by
    dsimp only [W1, W0]; after_results; rfl
  rw [e]
  exact member_chain _ 0 _ t k

/-- The odd columns of `x`. -/
theorem host_xo (c : Dev nD) (t : Fin 8192) (k : Fin 2048) :
    (W1 (F := Ideal) m ρ c (Proc.devRef .tc main_v6) : S8192x2048.Idx → EReal) (ix2 t k)
      = (m ((c.tc : Thread nD τ).loc main_arg0) : S8192x4096.Idx → EReal) (ix2 t ⟨2 * k.val + 1, by omega⟩) := by
  have e : (W1 (F := Ideal) m ρ c (Proc.devRef .tc main_v6) : S8192x2048.Idx → EReal)
      = (truncf .bf16
          (shapeCast S8192x2048
            (extractStridedSlice S8192x2048x1 ![0, 0, (1 : Fin 2).val]
              (shapeCast S8192x2048x2 (m ((c.tc : Thread nD τ).loc main_arg0) : FVec Ideal S8192x4096 .f32)
                shapeCasts_S8192x4096_S8192x2048x2) slices_S8192x2048x2_S8192x2048x1_0_0_1)
            shapeCasts_S8192x2048x1_S8192x2048 : FVec Ideal S8192x2048 .f32)
          bitsLt_bf16_f32 : FVec Ideal S8192x2048 .bf16) := by
    dsimp only [W1, W0]; after_results; rfl
  rw [e]
  exact member_chain _ 1 _ t k

/-- The packed words as a matrix, row-major. -/
theorem host_packed (c : Dev nD) (o : Fin 4096) (k : Fin 2048) :
    (W1 (F := Ideal) m ρ c (Proc.devRef .tc main_v7) : S4096x2048.Idx → BitVec 32) (ix2 o k)
      = (m ((c.tc : Thread nD τ).loc main_arg1) : S8388608.Idx → BitVec 32) (ix1 ⟨o.val * 2048 + k.val, by omega⟩) := by
  have e : (W1 (F := Ideal) m ρ c (Proc.devRef .tc main_v7) : S4096x2048.Idx → BitVec 32)
      = shapeCast S4096x2048 (m ((c.tc : Thread nD τ).loc main_arg1) : S8388608.Idx → BitVec 32)
          shapeCasts_S8388608_S4096x2048 := by
    dsimp only [W1, W0]; after_results; rfl
  rw [e]
  exact rows_apply _ _ o k

/-- The bias as a row. -/
theorem host_bias (c : Dev nD) (o : Fin 4096) :
    (W1 (F := Ideal) m ρ c (Proc.devRef .tc main_v8) : S1x4096.Idx → EReal) (ix2 0 o)
      = (m ((c.tc : Thread nD τ).loc main_arg3) : S4096.Idx → EReal) (ix1 o) := by
  have e : (W1 (F := Ideal) m ρ c (Proc.devRef .tc main_v8) : S1x4096.Idx → EReal)
      = shapeCast S1x4096 (m ((c.tc : Thread nD τ).loc main_arg3) : S4096.Idx → EReal) shapeCasts_S4096_S1x4096 := by
    dsimp only [W1, W0]; after_results; rfl
  rw [e]
  exact shapeCast_a_1a_apply _ _ 0 o

/-- The scale as a 1 × 1 matrix. -/
theorem host_scale (c : Dev nD) :
    (W1 (F := Ideal) m ρ c (Proc.devRef .tc main_v9) : S1x1.Idx → EReal) (ix2 0 0)
      = (m ((c.tc : Thread nD τ).loc main_arg2) : S1.Idx → EReal) (ix1 0) := by
  have e : (W1 (F := Ideal) m ρ c (Proc.devRef .tc main_v9) : S1x1.Idx → EReal)
      = shapeCast S1x1 (m ((c.tc : Thread nD τ).loc main_arg2) : S1.Idx → EReal) shapeCasts_S1_S1x1 := by
    dsimp only [W1, W0]; after_results; rfl
  rw [e]
  exact shapeCast_a_1a_apply _ _ 0 0

end Cert.KernelIdeal.Hand

end
-- ==== Proof.KernelValue.lean ====
/-
  The kernel program's result array as one function of the argument arrays, at the ideal instance. The second
  region's array is its product form over the contents it is entered from; of those, the two halves of `x`, the
  scale and the bias are not written by the first region, so they are what the host operations left, and the two
  weight halves are the first region's outputs, the decoded nibbles of the packed words the host operations laid out.
-/
import proofs.«419606_j34376918237971_3_alg».proof.Proof.KernelRun
import proofs.«419606_j34376918237971_3_alg».proof.Proof.DequantValue
import proofs.«419606_j34376918237971_3_alg».proof.Proof.GemmValue
import proofs.«419606_j34376918237971_3_alg».proof.Proof.HostValue
import proofs.«419606_j34376918237971_3_alg».proof.Proof.Fp4Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The even columns of `x` as the second region finds them. -/
theorem entry_xe (c : Dev nD) (t : Fin 8192) (k : Fin 2048) :
    (V2 (F := Ideal) m ρ c main_v3 : S8192x2048.Idx → EReal) (ix2 t k)
      = (m ((c.tc : Thread nD τ).loc main_arg0) : S8192x4096.Idx → EReal) (ix2 t ⟨2 * k.val, by omega⟩) :=
  (congrFun (W2_of_ne m ρ c main_v3 (by decide)) (ix2 t k)).trans (host_xe m ρ c t k)

/-- The odd columns of `x` as the second region finds them. -/
theorem entry_xo (c : Dev nD) (t : Fin 8192) (k : Fin 2048) :
    (V2 (F := Ideal) m ρ c main_v6 : S8192x2048.Idx → EReal) (ix2 t k)
      = (m ((c.tc : Thread nD τ).loc main_arg0) : S8192x4096.Idx → EReal) (ix2 t ⟨2 * k.val + 1, by omega⟩) :=
  (congrFun (W2_of_ne m ρ c main_v6 (by decide)) (ix2 t k)).trans (host_xo m ρ c t k)

/-- The even-column weights as the second region finds them: the decoded high nibbles. -/
theorem entry_we (c : Dev nD) (o : Fin 4096) (k : Fin 2048) :
    (V2 (F := Ideal) m ρ c main_v10_0 : S4096x2048.Idx → EReal) (ix2 o k)
      = Cert.Fp4.decK (Cert.Fp4.hi ((m ((c.tc : Thread nD τ).loc main_arg1) : S8388608.Idx → BitVec 32) (ix1 ⟨o.val * 2048 + k.val, by omega⟩))) :=
  (congrFun (W2_arr m ρ c 1) (ix2 o k)).trans
    ((dequant_even (V1 m ρ) c o k).trans (congrArg (fun w => Cert.Fp4.decK (Cert.Fp4.hi w)) (host_packed m ρ c o k)))

/-- The odd-column weights as the second region finds them: the decoded low nibbles. -/
theorem entry_wo (c : Dev nD) (o : Fin 4096) (k : Fin 2048) :
    (V2 (F := Ideal) m ρ c main_v10_1 : S4096x2048.Idx → EReal) (ix2 o k)
      = Cert.Fp4.decK (Cert.Fp4.lo ((m ((c.tc : Thread nD τ).loc main_arg1) : S8388608.Idx → BitVec 32) (ix1 ⟨o.val * 2048 + k.val, by omega⟩))) :=
  (congrFun (W2_arr m ρ c 2) (ix2 o k)).trans
    ((dequant_odd (V1 m ρ) c o k).trans (congrArg (fun w => Cert.Fp4.decK (Cert.Fp4.lo w)) (host_packed m ρ c o k)))

/-- The scale as the second region finds it. -/
theorem entry_scale (c : Dev nD) :
    (V2 (F := Ideal) m ρ c main_v9 : S1x1.Idx → EReal) (ix2 0 0)
      = (m ((c.tc : Thread nD τ).loc main_arg2) : S1.Idx → EReal) (ix1 0) :=
  (congrFun (W2_of_ne m ρ c main_v9 (by decide)) (ix2 0 0)).trans (host_scale m ρ c)

/-- The bias row as the second region finds it. -/
theorem entry_bias (c : Dev nD) (o : Fin 4096) :
    (V2 (F := Ideal) m ρ c main_v8 : S1x4096.Idx → EReal) (ix2 0 o)
      = (m ((c.tc : Thread nD τ).loc main_arg3) : S4096.Idx → EReal) (ix1 o) :=
  (congrFun (W2_of_ne m ρ c main_v8 (by decide)) (ix2 0 o)).trans (host_bias m ρ c o)

/-- The result array as one function of the four argument arrays. -/
def kernelOut (x : S8192x4096.Idx → EReal) (p : S8388608.Idx → BitVec 32) (s : S1.Idx → EReal) (b : S4096.Idx → EReal) :
    S8192x4096.Idx → EReal := fun j => Cert.Fp4.outAt x p s b (j 0) (j 1)

/-- Entry `(t, o)` of what the last region leaves in the result array. -/
theorem result_entry (c : Dev nD) (t : Fin 8192) (o : Fin 4096) :
    (W3 (F := Ideal) m ρ c (Proc.devRef .tc main_v11) : S8192x4096.Idx → EReal) (ix2 t o)
      = Cert.Fp4.outAt (m ((c.tc : Thread nD τ).loc main_arg0)) (m ((c.tc : Thread nD τ).loc main_arg1))
          (m ((c.tc : Thread nD τ).loc main_arg2)) (m ((c.tc : Thread nD τ).loc main_arg3)) t o := by
  refine (congrFun (W3_arr m ρ c 6) (ix2 t o)).trans ((gemm_out (V2 m ρ) c t o).trans ?_)
  unfold Cert.Fp4.gemmAt Cert.Fp4.outAt
  refine congrArg₂ (· + ·) (congrArg₂ (· * ·) (congrArg₂ (· + ·) (Finset.sum_congr rfl fun k _ => ?_)
    (Finset.sum_congr rfl fun k _ => ?_)) (entry_scale m ρ c)) (entry_bias m ρ c o)
  · exact congrArg₂ (· * ·) (entry_xe m ρ c t k) (entry_we m ρ c o k)
  · exact congrArg₂ (· * ·) (entry_xo m ρ c t k) (entry_wo m ρ c o k)

/-- The result array after the run. -/
theorem result_eq (c : Dev nD) :
    W3 (F := Ideal) m ρ c (Proc.devRef .tc main_v11)
      = kernelOut (m ((c.tc : Thread nD τ).loc main_arg0)) (m ((c.tc : Thread nD τ).loc main_arg1))
          (m ((c.tc : Thread nD τ).loc main_arg2)) (m ((c.tc : Thread nD τ).loc main_arg3)) := by
  funext j
  obtain ⟨t, o, rfl⟩ : ∃ (t : Fin 8192) (o : Fin 4096), j = ix2 t o := ⟨j 0, j 1, eq_ix2 j⟩
  exact result_entry m ρ c t o

/-- The run, read: the result array at `kernelOut` of the arguments, the arguments unchanged. -/
theorem run_value : θ_run defs (onTc (τ := τ) (main (F := Ideal))) ⟨m, fun _ => 0, ρ⟩ (fun r => ∀ c : Dev nD,
      r.2.mem ((c.tc : Thread nD τ).loc main_v11)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_result (F := Ideal) m ρ)

end Cert.KernelIdeal.Hand

end
-- ==== Proof.RefTerm.lean ====
/-
  The reference program's result as ONE term of its four argument arrays: its host operations composed in program
  order. The packed words' two nibbles are laid side by side and flattened (position `2 q` the high nibble of word
  `q`, `2 q + 1` its low nibble); each code's magnitude is read off the eight-entry table at `code & 7` (an index
  below zero would be moved up by eight first; none is), negated where bit 3 is set, and scaled; the flat weights
  are read as a 4096 × 4096 matrix, transposed, and contracted with `x` over its 4096 columns; the bias row is added.
-/
import proofs.«419606_j34376918237971_3_alg».proof.Proof.Gen.ReferenceIdeal

noncomputable section

namespace Cert.ReferenceIdeal.Hand

open Cert.ReferenceIdeal Cert.ReferenceIdeal.Gen Idealize.ShloMosaic

variable {F : FTy → Type} [FloatOps F]

/-- The eight magnitudes as a float vector. -/
def tableVec : FVec F S8 .f32 := fun i => FloatOps.ofBits .f32 (lit0 (S8.rowMajor i))

/-- The 4-bit codes, two per packed word, in the weights' order. -/
def codesVec (p : IVec S8388608 32) : IVec S16777216 32 :=
  let v1 : IVec S8388608 32 := Host.shrsi p (broadcastInDim S8388608 ![] bcast_S_S8388608 (constantI S_ 32 4#32))
  let v3 : IVec S8388608 32 := andi v1 (broadcastInDim S8388608 ![] bcast_S_S8388608 (constantI S_ 32 15#32))
  let v5 : IVec S8388608 32 := andi p (broadcastInDim S8388608 ![] bcast_S_S8388608 (constantI S_ 32 15#32))
  let v6 : IVec S8388608x1 32 := broadcastInDim S8388608x1 ![0] bcast_S8388608_S8388608x1_0 v3
  let v7 : IVec S8388608x1 32 := broadcastInDim S8388608x1 ![0] bcast_S8388608_S8388608x1_0 v5
  let v8 : IVec S8388608x2 32 := concatenate S8388608x2 1 [⟨S8388608x1, v6⟩, ⟨S8388608x1, v7⟩] concatenates_S8388608x1_S8388608x1_S8388608x2_d1
  shapeCast S16777216 v8 shapeCasts_S8388608x2_S16777216

/-- The signed magnitudes of a vector of codes: the table at `code & 7`, negated where bit 3 is set. -/
def signedVec (v9 : IVec S16777216 32) : FVec F S16777216 .f32 :=
  let v11 : IVec S16777216 32 := Host.shrsi v9 (broadcastInDim S16777216 ![] bcast_S_S16777216 (constantI S_ 32 3#32))
  let v13 : IVec S16777216 32 := andi v11 (broadcastInDim S16777216 ![] bcast_S_S16777216 (constantI S_ 32 1#32))
  let v15 : IVec S16777216 1 := cmpi .ne v13 (broadcastInDim S16777216 ![] bcast_S_S16777216 (constantI S_ 32 0#32))
  let v18 : IVec S16777216 32 := andi v9 (broadcastInDim S16777216 ![] bcast_S_S16777216 (constantI S_ 32 7#32))
  let v20 : IVec S16777216 1 := cmpi .slt v18 (broadcastInDim S16777216 ![] bcast_S_S16777216 (constantI S_ 32 0#32))
  let v22 : IVec S16777216 32 := addi v18 (broadcastInDim S16777216 ![] bcast_S_S16777216 (constantI S_ 32 8#32))
  let v23 : IVec S16777216 32 := select v20 v22 v18
  let v24 : IVec S16777216x1 32 := broadcastInDim S16777216x1 ![0] bcast_S16777216_S16777216x1_0 v23
  let v25 : FVec F S16777216 .f32 := Host.gather gather_S8_S16777216x1_S16777216_n_0_n_n_0_1_1 (tableVec (F := F)) v24
  let v26 : FVec F S16777216 .f32 := Host.negf v25
  select v15 v26 v25

/-- The reference's result array as one term of the argument arrays. -/
def refOut (x : FVec F S8192x4096 .f32) (p : IVec S8388608 32) (s : FVec F S1 .f32) (b : FVec F S4096 .f32) :
    FVec F S8192x4096 .f32 :=
  let v27 : FVec F S16777216 .f32 := signedVec (F := F) (codesVec p)
  let v28 : FVec F S_ .f32 := shapeCast S_ s shapeCasts_S1_S_
  let v29 : FVec F S16777216 .f32 := broadcastInDim S16777216 ![] bcast_S_S16777216 v28
  let v30 : FVec F S16777216 .f32 := mulf v27 v29
  let v31 : FVec F S4096x4096 .f32 := shapeCast S4096x4096 v30 shapeCasts_S16777216_S4096x4096
  let v32 : FVec F S4096x4096 .f32 := transpose S4096x4096 [1, 0] v31 transposes_S4096x4096_S4096x4096_1_0
  let v33 : FVec F S8192x4096 .f32 := Host.dotGeneral dot_S8192x4096_S4096x4096_S8192x4096_1_0_0_1_n_n none x v32
  let v34 : FVec F S1x4096 .f32 := broadcastInDim S1x4096 ![1] bcast_S4096_S1x4096_1 b
  let v35 : FVec F S8192x4096 .f32 := broadcastInDim S8192x4096 ![0, 1] bcast_S1x4096_S8192x4096_0_1 v34
  addf v33 v35

end Cert.ReferenceIdeal.Hand

end
-- ==== Proof.RefRun.lean ====
/-
  The reference program's run: every weakly fair execution of its host operations terminates without a fault, the
  result array at the operations' composed term of the arguments (`refOut`), the arguments unchanged. The one called
  function (a select) is read at its call site over the call's own buffer.
-/
import proofs.«419606_j34376918237971_3_alg».proof.Proof.RefTerm
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-! The operations as a list, and the fold over it read stretch by stretch: the codes, the signed magnitudes, the product. -/
namespace RefRun

/-- The program's forty-seven operations in order; the called function's one operation (a select) stands at its call
    site, over the call's operands and the call's own result buffer. -/
abbrev ops : List (HloOp τ sig (Elt F)) :=
  [ StableHlo.nullary main_cst (fun i => FloatOps.ofBits .f32 (lit0 (S8.rowMajor i))),
    StableHlo.nullary main_c (constantI S_ 32 4#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 15#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (andi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 15#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_arg1 main_v4 main_v5 (andi : (⟨S8388608, .i32⟩ : BufTy).Contents (Elt F) → (⟨S8388608, .i32⟩ : BufTy).Contents (Elt F) → (⟨S8388608, .i32⟩ : BufTy).Contents (Elt F)),
    StableHlo.unary main_v3 main_v6 (broadcastInDim S8388608x1 ![0] bcast_S8388608_S8388608x1_0 : (⟨S8388608, .i32⟩ : BufTy).Contents (Elt F) → (⟨S8388608x1, .i32⟩ : BufTy).Contents (Elt F)),
    StableHlo.unary main_v5 main_v7 (broadcastInDim S8388608x1 ![0] bcast_S8388608_S8388608x1_0 : (⟨S8388608, .i32⟩ : BufTy).Contents (Elt F) → (⟨S8388608x1, .i32⟩ : BufTy).Contents (Elt F)),
    StableHlo.binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.reshape main_v8 main_v9 rfl shapeCasts_S8388608x2_S16777216,
    StableHlo.nullary main_c_2 (constantI S_ 32 3#32),
    StableHlo.unary main_c_2 main_v10 (broadcastInDim S16777216 ![] bcast_S_S16777216 : (⟨S_, .i32⟩ : BufTy).Contents (Elt F) → (⟨S16777216, .i32⟩ : BufTy).Contents (Elt F)),
    StableHlo.binary main_v9 main_v10 main_v11 (Host.shrsi : (⟨S16777216, .i32⟩ : BufTy).Contents (Elt F) → (⟨S16777216, .i32⟩ : BufTy).Contents (Elt F) → (⟨S16777216, .i32⟩ : BufTy).Contents (Elt F)),
    StableHlo.nullary main_c_3 (constantI S_ 32 1#32),
    StableHlo.unary main_c_3 main_v12 (broadcastInDim S16777216 ![] bcast_S_S16777216 : (⟨S_, .i32⟩ : BufTy).Contents (Elt F) → (⟨S16777216, .i32⟩ : BufTy).Contents (Elt F)),
    StableHlo.binary main_v11 main_v12 main_v13 (andi : (⟨S16777216, .i32⟩ : BufTy).Contents (Elt F) → (⟨S16777216, .i32⟩ : BufTy).Contents (Elt F) → (⟨S16777216, .i32⟩ : BufTy).Contents (Elt F)),
    StableHlo.nullary main_c_4 (constantI S_ 32 0#32),
    StableHlo.unary main_c_4 main_v14 (broadcastInDim S16777216 ![] bcast_S_S16777216 : (⟨S_, .i32⟩ : BufTy).Contents (Elt F) → (⟨S16777216, .i32⟩ : BufTy).Contents (Elt F)),
    StableHlo.binary main_v13 main_v14 main_v15 (cmpi .ne : (⟨S16777216, .i32⟩ : BufTy).Contents (Elt F) → (⟨S16777216, .i32⟩ : BufTy).Contents (Elt F) → (⟨S16777216, .i1⟩ : BufTy).Contents (Elt F)),
    StableHlo.unary main_v15 main_v16 (id : (⟨S16777216, .i1⟩ : BufTy).Contents (Elt F) → (⟨S16777216, .i1⟩ : BufTy).Contents (Elt F)),
    StableHlo.nullary main_c_5 (constantI S_ 32 7#32),
    StableHlo.unary main_c_5 main_v17 (broadcastInDim S16777216 ![] bcast_S_S16777216 : (⟨S_, .i32⟩ : BufTy).Contents (Elt F) → (⟨S16777216, .i32⟩ : BufTy).Contents (Elt F)),
    StableHlo.binary main_v9 main_v17 main_v18 (andi : (⟨S16777216, .i32⟩ : BufTy).Contents (Elt F) → (⟨S16777216, .i32⟩ : BufTy).Contents (Elt F) → (⟨S16777216, .i32⟩ : BufTy).Contents (Elt F)),
    StableHlo.nullary main_c_6 (constantI S_ 32 0#32),
    StableHlo.unary main_c_6 main_v19 (broadcastInDim S16777216 ![] bcast_S_S16777216 : (⟨S_, .i32⟩ : BufTy).Contents (Elt F) → (⟨S16777216, .i32⟩ : BufTy).Contents (Elt F)),
    StableHlo.binary main_v18 main_v19 main_v20 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 8#32),
    StableHlo.unary main_c_7 main_v21 (broadcastInDim S16777216 ![] bcast_S_S16777216 : (⟨S_, .i32⟩ : BufTy).Contents (Elt F) → (⟨S16777216, .i32⟩ : BufTy).Contents (Elt F)),
    StableHlo.binary main_v18 main_v21 main_v22 (addi : (⟨S16777216, .i32⟩ : BufTy).Contents (Elt F) → (⟨S16777216, .i32⟩ : BufTy).Contents (Elt F) → (⟨S16777216, .i32⟩ : BufTy).Contents (Elt F)),
    StableHlo.ternary main_v20 main_v22 main_v18 main_v23 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v23 main_v24 (broadcastInDim S16777216x1 ![0] bcast_S16777216_S16777216x1_0 : (⟨S16777216, .i32⟩ : BufTy).Contents (Elt F) → (⟨S16777216x1, .i32⟩ : BufTy).Contents (Elt F)),
    StableHlo.binary main_cst main_v24 main_v25 ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F)),
    StableHlo.unary main_v25 main_v26 (Host.negf : (⟨S16777216, .f32⟩ : BufTy).Contents (Elt F) → (⟨S16777216, .f32⟩ : BufTy).Contents (Elt F)),
    TRef.ternary (.of main_v16 : TRef sig ⟨S16777216, .i1⟩) (.of main_v26 : TRef sig ⟨S16777216, .f32⟩) (.of main_v25 : TRef sig ⟨S16777216, .f32⟩) main_call0.v0 select,
    StableHlo.reshape main_arg2 main_v28 rfl shapeCasts_S1_S_,
    StableHlo.unary main_v28 main_v29 (broadcastInDim S16777216 ![] bcast_S_S16777216 : (⟨S_, .f32⟩ : BufTy).Contents (Elt F) → (⟨S16777216, .f32⟩ : BufTy).Contents (Elt F)),
    StableHlo.binary main_v27 main_v29 main_v30 (mulf : (⟨S16777216, .f32⟩ : BufTy).Contents (Elt F) → (⟨S16777216, .f32⟩ : BufTy).Contents (Elt F) → (⟨S16777216, .f32⟩ : BufTy).Contents (Elt F)),
    StableHlo.reshape main_v30 main_v31 rfl shapeCasts_S16777216_S4096x4096,
    StableHlo.unary main_v31 main_v32 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v32 main_v33 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg3 main_v34 (broadcastInDim S1x4096 ![1] bcast_S4096_S1x4096_1 : (⟨S4096, .f32⟩ : BufTy).Contents (Elt F) → (⟨S1x4096, .f32⟩ : BufTy).Contents (Elt F)),
    StableHlo.unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v33 main_v35 main_v36 (addf : (⟨S8192x4096, .f32⟩ : BufTy).Contents (Elt F) → (⟨S8192x4096, .f32⟩ : BufTy).Contents (Elt F) → (⟨S8192x4096, .f32⟩ : BufTy).Contents (Elt F)) ]

-- forty-eight binds re-associated: the rewrite under the chain recurses once per statement
set_option maxRecDepth 1024 in
/-- The program is that straight line: the called function unfolded at its call, both sides are one chain of steps once
    sequencing is re-associated. -/
theorem main_eq (c : Dev nD) : main (F := F) c = seq ops := by
  simp only [main, fn_where.body, seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., ternary_bufs_sub .., reshape_bufs_sub .., unary_bufs_sub .., binary_bufs_sub .., reshape_bufs_sub ..,
    unary_bufs_sub .., binary_bufs_sub .., unary_bufs_sub .., unary_bufs_sub .., binary_bufs_sub ..⟩

/-- Folding a concatenation is folding its parts in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first stretch: the table and the nibble codes (through the flattened codes). -/
abbrev opsA : List (HloOp τ sig (Elt F)) :=
  [ StableHlo.nullary main_cst (fun i => FloatOps.ofBits .f32 (lit0 (S8.rowMajor i))),
    StableHlo.nullary main_c (constantI S_ 32 4#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 15#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (andi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 15#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_arg1 main_v4 main_v5 (andi : (⟨S8388608, .i32⟩ : BufTy).Contents (Elt F) → (⟨S8388608, .i32⟩ : BufTy).Contents (Elt F) → (⟨S8388608, .i32⟩ : BufTy).Contents (Elt F)),
    StableHlo.unary main_v3 main_v6 (broadcastInDim S8388608x1 ![0] bcast_S8388608_S8388608x1_0 : (⟨S8388608, .i32⟩ : BufTy).Contents (Elt F) → (⟨S8388608x1, .i32⟩ : BufTy).Contents (Elt F)),
    StableHlo.unary main_v5 main_v7 (broadcastInDim S8388608x1 ![0] bcast_S8388608_S8388608x1_0 : (⟨S8388608, .i32⟩ : BufTy).Contents (Elt F) → (⟨S8388608x1, .i32⟩ : BufTy).Contents (Elt F)),
    StableHlo.binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.reshape main_v8 main_v9 rfl shapeCasts_S8388608x2_S16777216 ]

/-- The second stretch: the signed magnitudes (through the called select). -/
abbrev opsB : List (HloOp τ sig (Elt F)) :=
  [ StableHlo.nullary main_c_2 (constantI S_ 32 3#32),
    StableHlo.unary main_c_2 main_v10 (broadcastInDim S16777216 ![] bcast_S_S16777216 : (⟨S_, .i32⟩ : BufTy).Contents (Elt F) → (⟨S16777216, .i32⟩ : BufTy).Contents (Elt F)),
    StableHlo.binary main_v9 main_v10 main_v11 (Host.shrsi : (⟨S16777216, .i32⟩ : BufTy).Contents (Elt F) → (⟨S16777216, .i32⟩ : BufTy).Contents (Elt F) → (⟨S16777216, .i32⟩ : BufTy).Contents (Elt F)),
    StableHlo.nullary main_c_3 (constantI S_ 32 1#32),
    StableHlo.unary main_c_3 main_v12 (broadcastInDim S16777216 ![] bcast_S_S16777216 : (⟨S_, .i32⟩ : BufTy).Contents (Elt F) → (⟨S16777216, .i32⟩ : BufTy).Contents (Elt F)),
    StableHlo.binary main_v11 main_v12 main_v13 (andi : (⟨S16777216, .i32⟩ : BufTy).Contents (Elt F) → (⟨S16777216, .i32⟩ : BufTy).Contents (Elt F) → (⟨S16777216, .i32⟩ : BufTy).Contents (Elt F)),
    StableHlo.nullary main_c_4 (constantI S_ 32 0#32),
    StableHlo.unary main_c_4 main_v14 (broadcastInDim S16777216 ![] bcast_S_S16777216 : (⟨S_, .i32⟩ : BufTy).Contents (Elt F) → (⟨S16777216, .i32⟩ : BufTy).Contents (Elt F)),
    StableHlo.binary main_v13 main_v14 main_v15 (cmpi .ne : (⟨S16777216, .i32⟩ : BufTy).Contents (Elt F) → (⟨S16777216, .i32⟩ : BufTy).Contents (Elt F) → (⟨S16777216, .i1⟩ : BufTy).Contents (Elt F)),
    StableHlo.unary main_v15 main_v16 (id : (⟨S16777216, .i1⟩ : BufTy).Contents (Elt F) → (⟨S16777216, .i1⟩ : BufTy).Contents (Elt F)),
    StableHlo.nullary main_c_5 (constantI S_ 32 7#32),
    StableHlo.unary main_c_5 main_v17 (broadcastInDim S16777216 ![] bcast_S_S16777216 : (⟨S_, .i32⟩ : BufTy).Contents (Elt F) → (⟨S16777216, .i32⟩ : BufTy).Contents (Elt F)),
    StableHlo.binary main_v9 main_v17 main_v18 (andi : (⟨S16777216, .i32⟩ : BufTy).Contents (Elt F) → (⟨S16777216, .i32⟩ : BufTy).Contents (Elt F) → (⟨S16777216, .i32⟩ : BufTy).Contents (Elt F)),
    StableHlo.nullary main_c_6 (constantI S_ 32 0#32),
    StableHlo.unary main_c_6 main_v19 (broadcastInDim S16777216 ![] bcast_S_S16777216 : (⟨S_, .i32⟩ : BufTy).Contents (Elt F) → (⟨S16777216, .i32⟩ : BufTy).Contents (Elt F)),
    StableHlo.binary main_v18 main_v19 main_v20 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 8#32),
    StableHlo.unary main_c_7 main_v21 (broadcastInDim S16777216 ![] bcast_S_S16777216 : (⟨S_, .i32⟩ : BufTy).Contents (Elt F) → (⟨S16777216, .i32⟩ : BufTy).Contents (Elt F)),
    StableHlo.binary main_v18 main_v21 main_v22 (addi : (⟨S16777216, .i32⟩ : BufTy).Contents (Elt F) → (⟨S16777216, .i32⟩ : BufTy).Contents (Elt F) → (⟨S16777216, .i32⟩ : BufTy).Contents (Elt F)),
    StableHlo.ternary main_v20 main_v22 main_v18 main_v23 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v23 main_v24 (broadcastInDim S16777216x1 ![0] bcast_S16777216_S16777216x1_0 : (⟨S16777216, .i32⟩ : BufTy).Contents (Elt F) → (⟨S16777216x1, .i32⟩ : BufTy).Contents (Elt F)),
    StableHlo.binary main_cst main_v24 main_v25 ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F)),
    StableHlo.unary main_v25 main_v26 (Host.negf : (⟨S16777216, .f32⟩ : BufTy).Contents (Elt F) → (⟨S16777216, .f32⟩ : BufTy).Contents (Elt F)),
    TRef.ternary (.of main_v16 : TRef sig ⟨S16777216, .i1⟩) (.of main_v26 : TRef sig ⟨S16777216, .f32⟩) (.of main_v25 : TRef sig ⟨S16777216, .f32⟩) main_call0.v0 select ]

/-- The third stretch: the scaling, the matrix product and the bias. -/
abbrev opsC : List (HloOp τ sig (Elt F)) :=
  [ StableHlo.reshape main_arg2 main_v28 rfl shapeCasts_S1_S_,
    StableHlo.unary main_v28 main_v29 (broadcastInDim S16777216 ![] bcast_S_S16777216 : (⟨S_, .f32⟩ : BufTy).Contents (Elt F) → (⟨S16777216, .f32⟩ : BufTy).Contents (Elt F)),
    StableHlo.binary main_v27 main_v29 main_v30 (mulf : (⟨S16777216, .f32⟩ : BufTy).Contents (Elt F) → (⟨S16777216, .f32⟩ : BufTy).Contents (Elt F) → (⟨S16777216, .f32⟩ : BufTy).Contents (Elt F)),
    StableHlo.reshape main_v30 main_v31 rfl shapeCasts_S16777216_S4096x4096,
    StableHlo.unary main_v31 main_v32 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v32 main_v33 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg3 main_v34 (broadcastInDim S1x4096 ![1] bcast_S4096_S1x4096_1 : (⟨S4096, .f32⟩ : BufTy).Contents (Elt F) → (⟨S1x4096, .f32⟩ : BufTy).Contents (Elt F)),
    StableHlo.unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v33 main_v35 main_v36 (addf : (⟨S8192x4096, .f32⟩ : BufTy).Contents (Elt F) → (⟨S8192x4096, .f32⟩ : BufTy).Contents (Elt F) → (⟨S8192x4096, .f32⟩ : BufTy).Contents (Elt F)) ]

/-- The line is its three stretches one after the other. -/
theorem ops_split : (ops : List (HloOp τ sig (Elt F))) = opsA ++ (opsB ++ opsC) := rfl

/-- `signedVec` over any table vector (the program's is `tableVec`). -/
def signedT (t : FVec F S8 .f32) (v9 : IVec S16777216 32) : FVec F S16777216 .f32 :=
  let v11 : IVec S16777216 32 := Host.shrsi v9 (broadcastInDim S16777216 ![] bcast_S_S16777216 (constantI S_ 32 3#32))
  let v13 : IVec S16777216 32 := andi v11 (broadcastInDim S16777216 ![] bcast_S_S16777216 (constantI S_ 32 1#32))
  let v15 : IVec S16777216 1 := cmpi .ne v13 (broadcastInDim S16777216 ![] bcast_S_S16777216 (constantI S_ 32 0#32))
  let v18 : IVec S16777216 32 := andi v9 (broadcastInDim S16777216 ![] bcast_S_S16777216 (constantI S_ 32 7#32))
  let v20 : IVec S16777216 1 := cmpi .slt v18 (broadcastInDim S16777216 ![] bcast_S_S16777216 (constantI S_ 32 0#32))
  let v22 : IVec S16777216 32 := addi v18 (broadcastInDim S16777216 ![] bcast_S_S16777216 (constantI S_ 32 8#32))
  let v23 : IVec S16777216 32 := select v20 v22 v18
  let v24 : IVec S16777216x1 32 := broadcastInDim S16777216x1 ![0] bcast_S16777216_S16777216x1_0 v23
  let v25 : FVec F S16777216 .f32 := Host.gather gather_S8_S16777216x1_S16777216_n_0_n_n_0_1_1 t v24
  let v26 : FVec F S16777216 .f32 := Host.negf v25
  select v15 v26 v25

/-- The last stretch's term over any vector of signed magnitudes. -/
def outT (x : FVec F S8192x4096 .f32) (v27 : FVec F S16777216 .f32) (s : FVec F S1 .f32) (b : FVec F S4096 .f32) :
    FVec F S8192x4096 .f32 :=
  let v28 : FVec F S_ .f32 := shapeCast S_ s shapeCasts_S1_S_
  let v29 : FVec F S16777216 .f32 := broadcastInDim S16777216 ![] bcast_S_S16777216 v28
  let v30 : FVec F S16777216 .f32 := mulf v27 v29
  let v31 : FVec F S4096x4096 .f32 := shapeCast S4096x4096 v30 shapeCasts_S16777216_S4096x4096
  let v32 : FVec F S4096x4096 .f32 := transpose S4096x4096 [1, 0] v31 transposes_S4096x4096_S4096x4096_1_0
  let v33 : FVec F S8192x4096 .f32 := Host.dotGeneral dot_S8192x4096_S4096x4096_S8192x4096_1_0_0_1_n_n none x v32
  let v34 : FVec F S1x4096 .f32 := broadcastInDim S1x4096 ![1] bcast_S4096_S1x4096_1 b
  let v35 : FVec F S8192x4096 .f32 := broadcastInDim S8192x4096 ![0, 1] bcast_S1x4096_S8192x4096_0_1 v34
  addf v33 v35

/-- `refOut` is the last stretch's term at the signed magnitudes of the codes, read off the program's table. -/
theorem refOut_eq (x : FVec F S8192x4096 .f32) (p : IVec S8388608 32) (s : FVec F S1 .f32) (b : FVec F S4096 .f32) :
    refOut (F := F) x p s b = outT x (signedT (tableVec (F := F)) (codesVec p)) s b := rfl

-- the gather's body is a search over the operand's elements; the equations below never look inside it
attribute [local irreducible] Host.gather

/-- After the first stretch the flattened codes' buffer holds `codesVec` of the packed words, the table's buffer the
    eight magnitudes, and no argument's buffer has been written. -/
theorem A_v9 (V : Valuation τ sig (Elt F)) :
    after opsA V (main_v9 : DevRef τ sig) = codesVec (V (main_arg1 : DevRef τ sig)) := by
  after_results
  rfl
theorem A_cst (V : Valuation τ sig (Elt F)) :
    after opsA V (main_cst : DevRef τ sig) = tableVec (F := F) := by
  after_results
  rfl
theorem A_arg0 (V : Valuation τ sig (Elt F)) : after opsA V (main_arg0 : DevRef τ sig) = V (main_arg0 : DevRef τ sig) := by after_results
theorem A_arg1 (V : Valuation τ sig (Elt F)) : after opsA V (main_arg1 : DevRef τ sig) = V (main_arg1 : DevRef τ sig) := by after_results
theorem A_arg2 (V : Valuation τ sig (Elt F)) : after opsA V (main_arg2 : DevRef τ sig) = V (main_arg2 : DevRef τ sig) := by after_results
theorem A_arg3 (V : Valuation τ sig (Elt F)) : after opsA V (main_arg3 : DevRef τ sig) = V (main_arg3 : DevRef τ sig) := by after_results

/-- After the second stretch the select's buffer holds the signed magnitudes of whatever codes and table it started
    from (the conversion of the sign test is the identity), and no argument's buffer has been written. -/
theorem B_v27 (V : Valuation τ sig (Elt F)) :
    after opsB V (main_v27 : DevRef τ sig) = signedT (V (main_cst : DevRef τ sig)) (V (main_v9 : DevRef τ sig)) := by
  after_results_simp
  rfl
theorem B_arg0 (V : Valuation τ sig (Elt F)) : after opsB V (main_arg0 : DevRef τ sig) = V (main_arg0 : DevRef τ sig) := by after_results_simp
theorem B_arg1 (V : Valuation τ sig (Elt F)) : after opsB V (main_arg1 : DevRef τ sig) = V (main_arg1 : DevRef τ sig) := by after_results_simp
theorem B_arg2 (V : Valuation τ sig (Elt F)) : after opsB V (main_arg2 : DevRef τ sig) = V (main_arg2 : DevRef τ sig) := by after_results_simp
theorem B_arg3 (V : Valuation τ sig (Elt F)) : after opsB V (main_arg3 : DevRef τ sig) = V (main_arg3 : DevRef τ sig) := by after_results_simp

/-- After the third stretch the result buffer holds the scaled, reshaped, transposed weights contracted with the first
    argument plus the bias row, over whatever signed magnitudes it started from; no argument's buffer has been written. -/
theorem C_v36 (V : Valuation τ sig (Elt F)) :
    after opsC V (main_v36 : DevRef τ sig)
      = outT (V (main_arg0 : DevRef τ sig)) (V (main_v27 : DevRef τ sig)) (V (main_arg2 : DevRef τ sig)) (V (main_arg3 : DevRef τ sig)) := by
  after_results
  rfl
theorem C_arg0 (V : Valuation τ sig (Elt F)) : after opsC V (main_arg0 : DevRef τ sig) = V (main_arg0 : DevRef τ sig) := by after_results
theorem C_arg1 (V : Valuation τ sig (Elt F)) : after opsC V (main_arg1 : DevRef τ sig) = V (main_arg1 : DevRef τ sig) := by after_results
theorem C_arg2 (V : Valuation τ sig (Elt F)) : after opsC V (main_arg2 : DevRef τ sig) = V (main_arg2 : DevRef τ sig) := by after_results
theorem C_arg3 (V : Valuation τ sig (Elt F)) : after opsC V (main_arg3 : DevRef τ sig) = V (main_arg3 : DevRef τ sig) := by after_results

/-- The result buffer after the whole line: the three stretches' terms composed are `refOut` of the arguments. -/
theorem out_eq (V : Valuation τ sig (Elt F)) :
    after ops V (main_v36 : DevRef τ sig)
      = refOut (F := F) (V (main_arg0 : DevRef τ sig)) (V (main_arg1 : DevRef τ sig)) (V (main_arg2 : DevRef τ sig))
          (V (main_arg3 : DevRef τ sig)) := by
  rw [refOut_eq, ops_split, after_app, after_app, C_v36, B_v27, B_arg0, B_arg2, B_arg3, A_v9, A_cst, A_arg0, A_arg2, A_arg3]

/-- No operation writes an argument's buffer: each argument is kept through the three stretches. -/
theorem arg0_eq (V : Valuation τ sig (Elt F)) : after ops V (main_arg0 : DevRef τ sig) = V (main_arg0 : DevRef τ sig) := by
  rw [ops_split, after_app, after_app, C_arg0, B_arg0, A_arg0]
theorem arg1_eq (V : Valuation τ sig (Elt F)) : after ops V (main_arg1 : DevRef τ sig) = V (main_arg1 : DevRef τ sig) := by
  rw [ops_split, after_app, after_app, C_arg1, B_arg1, A_arg1]
theorem arg2_eq (V : Valuation τ sig (Elt F)) : after ops V (main_arg2 : DevRef τ sig) = V (main_arg2 : DevRef τ sig) := by
  rw [ops_split, after_app, after_app, C_arg2, B_arg2, A_arg2]
theorem arg3_eq (V : Valuation τ sig (Elt F)) : after ops V (main_arg3 : DevRef τ sig) = V (main_arg3 : DevRef τ sig) := by
  rw [ops_split, after_app, after_app, C_arg3, B_arg3, A_arg3]

end RefRun

/-- The run, read: the result at `refOut` of the launch contents of the four arguments, the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refOut (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v36).trans (RefRun.out_eq _),
      (h c main_arg0).trans (RefRun.arg0_eq _), (h c main_arg1).trans (RefRun.arg1_eq _),
      (h c main_arg2).trans (RefRun.arg2_eq _), (h c main_arg3).trans (RefRun.arg3_eq _)⟩)
    (run_seq RefRun.scopedRefs_eq RefRun.scopedSems_eq defs main (fun _ => RefRun.ops) RefRun.main_eq (fun _ => RefRun.ops_sub) m ρ)

end Cert.ReferenceIdeal.Hand

end
-- ==== Proof.RefRead.lean ====
/-
  The reference's composed term read at one entry, at the ideal instance: entry `(t, o)` is the sum over all 4096
  columns `i` of `x[t, i]` times the scaled signed magnitude of code `4096 o + i`, plus the bias entry `o`. The
  flattened pair of nibble columns puts the high nibble of word `q` at position `2 q` and its low nibble at
  `2 q + 1`; `code & 7` is never below zero and never above 7, so the table read is at that entry; the transpose
  and the contraction over the first axis read row `o` of the 4096 × 4096 weights.
-/
import proofs.«419606_j34376918237971_3_alg».proof.Proof.RefTerm
import proofs.«419606_j34376918237971_3_alg».proof.Proof.Fp4Spec
import Idealize.ShloMosaic.Lib.Pipeline.Value
import Idealize.ShloMosaic.Lib.ValueIdx
import Idealize.ShloMosaic.Lib.ValueLayout
import Idealize.ShloMosaic.Lib.StackMember
import Idealize.ShloMosaic.Lib.StableHlo.Predicate
import Idealize.ShloMosaic.PureOps.Ideal.Laws

noncomputable section

namespace Cert.ReferenceIdeal.Hand

open Cert.ReferenceIdeal Cert.ReferenceIdeal.Gen
open Idealize.ShloMosaic Idealize.ShloMosaic.TcCoe Idealize.ShloMosaic.ValueIdx Idealize.SL.Sem

/-! ## Indices by coordinates, and two broadcasts read at an index

The library's reads of a take-shaped gather and of a column or row broadcast name their indices by other constructors
than `ix1` / `ix2`; the three equations below identify them, coordinate by coordinate. -/

section Layout
variable {α : Type}

/-- A rank-1 index built from its position is `ix1` of it. -/
theorem ofFin_eq_ix1 {n : Nat} (k : Fin n) : Shape.Idx.ofFin k = ix1 k := by
  funext a
  match a with
  | ⟨0, _⟩ => rfl

/-- Row `k` of an [n × 1] column is the index `(k, 0)`. -/
theorem ixP_eq_ix2 {n : Nat} (k : Fin n) : StableHlo.Predicate.ixP k = ix2 k (0 : Fin 1) := by
  funext a
  match a with
  | ⟨0, _⟩ => rfl
  | ⟨1, _⟩ => rfl

/-- Entry `(r, c)` of an [n × m] rectangle is the index `ix2 r c`. -/
theorem ij_eq_ix2 {n m : Nat} (r : Fin n) (c : Fin m) : StableHlo.Predicate.ij r c = ix2 r c := by
  funext a
  match a with
  | ⟨0, _⟩ => rfl
  | ⟨1, _⟩ => rfl

/-- A vector laid as an [n × 1] column reads, at row `q`, the vector at `q`. -/
theorem bcastCol_apply {n : Nat} (h : (⟨1, ![n]⟩ : Shape).BroadcastsInDim ⟨2, ![n, 1]⟩ ![0])
    (v : (⟨1, ![n]⟩ : Shape).Idx → α) (q : Fin n) (z : Fin 1) :
    broadcastInDim ⟨2, ![n, 1]⟩ ![0] h v (ix2 q z) = v (ix1 q) := by
  obtain rfl : z = 0 := Subsingleton.elim _ _
  rw [← ixP_eq_ix2, StableHlo.Predicate.bcast_col1, ofFin_eq_ix1]

/-- A scalar broadcast to any shape reads the scalar's one entry everywhere: the operand has no axis, so the index
    it is read at has no coordinate to choose. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  congr 1
  funext a
  exact a.elim0

end Layout

/-! ## The codes -/

/-- Position `k` of the flattened nibble pairs: `k = 2 (k / 2) + k % 2` is row `k / 2`, column `k % 2` of the two
    columns laid side by side, the first column the high nibbles and the second the low ones; a shift by 4 is below
    the width, so it is the plain arithmetic shift. -/
theorem codesVec_apply (p : IVec S8388608 32) (k : Fin 16777216) :
    codesVec p (ix1 k) = Cert.Fp4.code p k := by
  have hk := k.isLt
  have hq : k.val / 2 < 8388608 := by omega
  have hr : k.val % 2 < 2 := by omega
  unfold codesVec
  refine (shapeCast_apply _ _ (ix1 k) (ix2 (⟨k.val / 2, hq⟩ : Fin 8388608) (⟨k.val % 2, hr⟩ : Fin 2)) (by
    rw [Shape.rowMajor_val_two, Shape.rowMajor_val_one]
    show k.val / 2 * 2 + k.val % 2 = k.val
    omega)).trans ?_
  unfold Cert.Fp4.code
  by_cases hpar : k.val % 2 = 0
  · -- column 0: the first piece, the high nibbles
    rw [if_pos hpar]
    refine (concatenate_pair_apply_left (t := S8388608x2) (s₁ := S8388608x1) (s₂ := S8388608x1) 1 _ _ _
      (ix2 (⟨k.val / 2, hq⟩ : Fin 8388608) (⟨k.val % 2, hr⟩ : Fin 2)) rfl
      (ix2 (⟨k.val / 2, hq⟩ : Fin 8388608) (0 : Fin 1)) (fun b => by
      match b with
      | ⟨0, _⟩ => rfl
      | ⟨1, _⟩ => show (0 : Nat) = k.val % 2; omega)).trans ?_
    rw [bcastCol_apply]
    show IntOp.andi (IntOp.shrsi .host (p (ix1 ⟨k.val / 2, _⟩)) 4#32) 15#32 = _
    rw [Cert.Fp4.shrsi_small .host _ 4#32 (by decide)]
    rfl
  · -- column 1: the second piece, one past the first piece's one column; the low nibbles
    rw [if_neg hpar]
    refine (concatenate_pair_apply_right (t := S8388608x2) (s₁ := S8388608x1) (s₂ := S8388608x1) 1 _ _ _
      (ix2 (⟨k.val / 2, hq⟩ : Fin 8388608) (⟨k.val % 2, hr⟩ : Fin 2)) rfl rfl
      (ix2 (⟨k.val / 2, hq⟩ : Fin 8388608) (0 : Fin 1)) (fun b hb => by
      match b, hb with
      | ⟨0, _⟩, _ => rfl
      | ⟨1, _⟩, hb => exact absurd rfl hb) (by show 0 + 1 = k.val % 2; omega)).trans ?_
    rw [bcastCol_apply]
    rfl

/-! ## The signed magnitudes -/

/-- The three low bits of a word are a number below 8: `w & 7 ≤ 7`. -/
theorem mag_lt (w : BitVec 32) : (IntOp.andi w 7#32).toNat < 8 := by
  show (w &&& 7#32).toNat < 8
  rw [BitVec.toNat_and]
  exact Nat.lt_succ_of_le Nat.and_le_right

/-- A word below 8 reads the same signed and unsigned, so it is not below zero. -/
theorem slt_zero_of_small (m : BitVec 32) (hm : m.toNat < 8) : IntOp.cmpi .slt m 0#32 = 0#1 := by
  have hi : m.toInt = (m.toNat : Int) := StableHlo.Predicate.toInt_eq_toNat_of_lt (by omega)
  have h0 : (0#32 : BitVec 32).toInt = 0 := by decide
  have hs : m.slt 0#32 = false := by
    unfold BitVec.slt
    rw [hi, h0]
    exact decide_eq_false (by omega)
  show BitVec.ofBool (m.slt 0#32) = 0#1
  rw [hs]
  rfl

/-- The program's table of float words is the specification's, entry by entry. -/
theorem lit0_eq_tab : ∀ j : Fin 8, lit0 j = Cert.Fp4.tab j := by decide

/-- The table read: where the start index at row `k` is a word `m` below 8, the gather reads the table's entry `m`: the
    signed reading of `m` is `m` itself, the clamp into `[0, 7]` leaves it, and `m % 8 = m`. -/
theorem table_read (idx : IVec S16777216x1 32) (k : Fin 16777216) (m : BitVec 32) (hm : m.toNat < 8)
    (hidx : idx (ix2 k (0 : Fin 1)) = m) :
    Host.gather gather_S8_S16777216x1_S16777216_n_0_n_n_0_1_1 (tableVec (F := Ideal)) idx (ix1 k)
      = Ideal.ofBits .f32 (Cert.Fp4.tab ⟨m.toNat % 8, Nat.mod_lt _ (by decide)⟩) := by
  have hi : m.toInt = (m.toNat : Int) := StableHlo.Predicate.toInt_eq_toNat_of_lt (by omega)
  have h1 := StableHlo.Predicate.gather_take gather_S8_S16777216x1_S16777216_n_0_n_n_0_1_1 rfl rfl rfl rfl
    (tableVec (F := Ideal)) idx k (by decide)
  rw [ofFin_eq_ix1 k] at h1
  rw [h1]
  refine (congrArg (Ideal.ofBits .f32) (lit0_eq_tab _)).trans ?_
  refine congrArg (fun j => Ideal.ofBits .f32 (Cert.Fp4.tab j)) (Fin.ext ?_)
  rw [Shape.rowMajor_val_one]
  show min (idx (StableHlo.Predicate.ixP k)).toInt.toNat (8 - 1) = m.toNat % 8
  rw [ixP_eq_ix2 k, hidx]
  omega

/-- A code's signed magnitude: the table at `code & 7` (never below zero, so never moved up by eight), negated where bit 3
    is set; a shift by 3 is below the width, so it is the plain arithmetic shift, and the negation at the ideal
    instance is the extended reals'. -/
theorem signedVec_apply (v : IVec S16777216 32) (k : Fin 16777216) :
    signedVec (F := Ideal) v (ix1 k) = Cert.Fp4.decR (v (ix1 k)) := by
  have hm := mag_lt (v (ix1 k))
  show Scalar.select (IntOp.cmpi .ne (IntOp.andi (IntOp.shrsi .host (v (ix1 k)) 3#32) 1#32) 0#32)
      (FloatOps.hostNegf (Host.gather gather_S8_S16777216x1_S16777216_n_0_n_n_0_1_1 (tableVec (F := Ideal)) _ (ix1 k)))
      (Host.gather gather_S8_S16777216x1_S16777216_n_0_n_n_0_1_1 (tableVec (F := Ideal)) _ (ix1 k)) = _
  rw [table_read _ k (IntOp.andi (v (ix1 k)) 7#32) hm (by
    rw [bcastCol_apply]
    show Scalar.select (IntOp.cmpi .slt (IntOp.andi (v (ix1 k)) 7#32) 0#32) _ (IntOp.andi (v (ix1 k)) 7#32) = _
    rw [slt_zero_of_small _ hm, select_zero])]
  rw [Cert.Fp4.shrsi_small .host (v (ix1 k)) 3#32 (by decide)]
  rfl

/-! ## The result -/

/-- The bias row laid as a [1 × 4096] array and repeated down the 8192 rows reads, at `(t, o)`, the bias at `o`. -/
theorem bias_apply (b : FVec Ideal S4096 .f32) (t : Fin 8192) (o : Fin 4096) :
    broadcastInDim S8192x4096 ![0, 1] bcast_S1x4096_S8192x4096_0_1 (broadcastInDim S1x4096 ![1] bcast_S4096_S1x4096_1 b) (ix2 t o)
      = b (ix1 o) := by
  rw [← ij_eq_ix2, StableHlo.Predicate.bcast_cols, ofFin_eq_ix1]

/-- The scale, a one-entry array read as a scalar and repeated, is its one entry everywhere: both arrays have one
    element, at row-major position 0. -/
theorem scale_apply (s : FVec Ideal S1 .f32) (j : S16777216.Idx) :
    broadcastInDim S16777216 ![] bcast_S_S16777216 (shapeCast S_ s shapeCasts_S1_S_) j = s (ix1 0) := by
  rw [bcastScalar_apply]
  refine shapeCast_apply _ _ _ (ix1 0) ?_
  rw [Shape.rowMajor_val_one]
  exact (Shape.rowMajorPi_zero _ _).symm

/-- The flat weights read as a 4096 × 4096 matrix and transposed: entry `(c, o)` of the transpose is entry `(o, c)` of
    the matrix, which is flat position `4096 o + c`. -/
theorem weight_apply (w : FVec Ideal S16777216 .f32) (c o : Fin 4096) :
    transpose S4096x4096 [1, 0] (shapeCast S4096x4096 w shapeCasts_S16777216_S4096x4096) transposes_S4096x4096_S4096x4096_1_0 (ix2 c o)
      = w (ix1 ⟨o.val * 4096 + c.val, by omega⟩) := by
  rw [transpose_ix2_apply]
  refine shapeCast_apply _ _ _ _ ?_
  rw [Shape.rowMajor_val_one, Shape.rowMajor_val_two]
  rfl

/-- The reference's result, entry by entry. -/
theorem refOut_apply (x : FVec Ideal S8192x4096 .f32) (p : IVec S8388608 32) (s : FVec Ideal S1 .f32) (b : FVec Ideal S4096 .f32)
    (t : Fin 8192) (o : Fin 4096) :
    refOut (F := Ideal) x p s b (ix2 t o) = Cert.Fp4.refAt x p s b t o := by
  -- the contraction's dimension numbers are the plain rows-by-columns product's: the same six lists
  have hD : dot_S8192x4096_S4096x4096_S8192x4096_1_0_0_1_n_n = DotDims.plain 8192 4096 4096 := rfl
  unfold refOut
  simp only [addf_apply]
  rw [hD, StackMember.dotGeneral_plain_apply, bias_apply]
  unfold Cert.Fp4.refAt
  -- term by term: the weight at `(i, o)` is the signed magnitude of code `4096 o + i` times the scale
  refine congrArg (fun z => z + b (ix1 o)) (Finset.sum_congr rfl fun i _ => ?_)
  rw [weight_apply, mulf_apply, signedVec_apply, codesVec_apply, scale_apply]

end Cert.ReferenceIdeal.Hand

end
-- ==== Proof.lean ====
/-
  A dense layer `x · Wᵀ + b` whose 4096 × 4096 weight matrix is stored as 4-bit codes, two to a packed word: a sign
  bit and a three-bit index into the magnitudes 0, 1/2, 1, 3/2, 2, 3, 4, 6, the whole scaled by one number `s`.

  The reference decodes every code through the table, scales each weight by `s`, and contracts `x` with the
  transposed weights over all 4096 columns. The kernel rebuilds each magnitude from its exponent field and mantissa
  bit, keeps the high-nibble (even-column) and low-nibble (odd-column) weights in two 4096 × 2048 arrays without the
  scale, multiplies the even columns of `x` by the first and the odd columns by the second in 1024 × 256 blocks, adds
  the two products, scales the sum by `s` and adds the bias.

  Over the extended reals the two results are one function of the arguments when `x` and `s` are real, which the
  precondition gives: the rebuilt magnitude is the table's entry on every code word (eight closed cases), the sum over
  4096 columns is the sum over the even plus the sum over the odd columns, and a real factor moves across a finite
  sum of reals. The weights themselves are always real. No law is used on an infinite value, and the bias is added
  last on both sides, so it needs no hypothesis.

  The kernel's run is the launch over its two regions with the result array read at the last region's exit contents;
  each region's output array is read through the blocks its grid points write, which tile it. The reference's run is
  its host operations composed in order.
-/
import proofs.«419606_j34376918237971_3_alg».proof.Defs
import proofs.«419606_j34376918237971_3_alg».proof.Proof.Gen.Kernel
import proofs.«419606_j34376918237971_3_alg».proof.Proof.Gen.Kernel.Skeleton
import proofs.«419606_j34376918237971_3_alg».proof.Proof.Gen.Kernel.Launch
import proofs.«419606_j34376918237971_3_alg».proof.Proof.Gen.Kernel.Points
import proofs.«419606_j34376918237971_3_alg».proof.Proof.Gen.Kernel.Frame
import proofs.«419606_j34376918237971_3_alg».proof.Proof.Gen.KernelIdeal
import proofs.«419606_j34376918237971_3_alg».proof.Proof.Gen.KernelIdeal.Skeleton
import proofs.«419606_j34376918237971_3_alg».proof.Proof.Gen.KernelIdeal.Launch
import proofs.«419606_j34376918237971_3_alg».proof.Proof.Gen.KernelIdeal.Points
import proofs.«419606_j34376918237971_3_alg».proof.Proof.Gen.KernelIdeal.Frame
import proofs.«419606_j34376918237971_3_alg».proof.Proof.Gen.ReferenceIdeal
import proofs.«419606_j34376918237971_3_alg».proof.Proof.Gen.Pre_finite_inputs
import proofs.«419606_j34376918237971_3_alg».proof.Proof.Fp4Spec
import proofs.«419606_j34376918237971_3_alg».proof.Proof.Finite
import proofs.«419606_j34376918237971_3_alg».proof.Proof.KernelValue
import proofs.«419606_j34376918237971_3_alg».proof.Proof.RefRun
import proofs.«419606_j34376918237971_3_alg».proof.Proof.RefRead
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end with the result `(∑ even columns + ∑ odd columns) · s + b`: the kernel's array is that form of
    its arguments; the reference's is the scaled full sum, equal to it for real `x` and `s`. -/
theorem algebraic : Cert.algebraic_KernelIdeal_ReferenceIdeal := by
  intro m ρ m' ρ' hpre hagree
  refine ⟨fun c => Cert.KernelIdeal.Hand.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun r h c => ⟨(h c).1.trans ?_, (h c).2⟩)
    (Cert.ReferenceIdeal.Hand.run (F := Ideal) m' ρ')
  obtain ⟨e0, e1, e2, e3⟩ := hagree c
  rw [e0, e1, e2, e3]
  obtain ⟨hx, hs⟩ := Cert.Pre_finite_inputs.Hand.real_of_pre _ _ _ _ (hpre c)
  funext j
  obtain ⟨t, o, rfl⟩ : ∃ (t : Fin 8192) (o : Fin 4096), j = ix2 t o := ⟨j 0, j 1, eq_ix2 j⟩
  exact (Cert.ReferenceIdeal.Hand.refOut_apply _ _ _ _ t o).trans (Cert.Fp4.bridge _ _ _ _ hx hs t o)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
